-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x64 : Shape := ⟨2, ![512, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x64 .f32) (main_arg3 : FVec F S64 .f32) (main_arg4 : FVec F S64x16 .f32) (main_arg5 : FVec F S16 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg4
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x64 : Shape := ⟨2, ![512, 64]⟩
abbrev S64 : Shape := ⟨1, ![64]⟩
abbrev S64x16 : Shape := ⟨2, ![64, 16]⟩
abbrev S16 : Shape := ⟨1, ![16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S5000x512 : Shape := ⟨2, ![5000, 512]⟩
abbrev S5000x64 : Shape := ⟨2, ![5000, 64]⟩
abbrev S3300000x64 : Shape := ⟨2, ![3300000, 64]⟩
abbrev S1x64 : Shape := ⟨2, ![1, 64]⟩
abbrev S100000x16 : Shape := ⟨2, ![100000, 16]⟩
abbrev S10000x64 : Shape := ⟨2, ![10000, 64]⟩
abbrev S10000x16 : Shape := ⟨2, ![10000, 16]⟩
abbrev S3300000x16 : Shape := ⟨2, ![3300000, 16]⟩
abbrev S1x16 : Shape := ⟨2, ![1, 16]⟩
abbrev S10000 : Shape := ⟨1, ![10000]⟩
abbrev S10000x1 : Shape := ⟨2, ![10000, 1]⟩

abbrev nBuf : Space → Nat
  | .hbm => 82
  | .vmem => 16
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S3300000x1, .f32⟩
  | .hbm, ⟨47, _⟩ => ⟨S100000x64, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x64, .f32⟩
  | .hbm, ⟨57, _⟩ => ⟨S3300000x64, .f32⟩
  | .hbm, ⟨58, _⟩ => ⟨S3300000x64, .f32⟩
  | .hbm, ⟨59, _⟩ => ⟨S_, .f32⟩
  | .hbm, ⟨60, _⟩ => ⟨S100000x64, .f32⟩
  | .hbm, ⟨61, _⟩ => ⟨S3300000x1, .i32⟩
  | .hbm, ⟨62, _⟩ => ⟨S100000x64, .f32⟩
  | .hbm, ⟨63, _⟩ => ⟨S1x64, .f32⟩
  | .hbm, ⟨64, _⟩ => ⟨S100000x16, .f32⟩
  | .hbm, ⟨65, _⟩ => ⟨S_, .i32⟩
  | .hbm, ⟨66, _⟩ => ⟨S3300000, .i32⟩
  | .hbm, ⟨67, _⟩ => ⟨S3300000, .i1⟩
  | .hbm, ⟨68, _⟩ => ⟨S_, .i32⟩
  | .hbm, ⟨69, _⟩ => ⟨S3300000, .i32⟩
  | .hbm, ⟨70, _⟩ => ⟨S3300000, .i32⟩
  | .hbm, ⟨71, _⟩ => ⟨S3300000, .i32⟩
  | .hbm, ⟨72, _⟩ => ⟨S3300000x1, .i32⟩
  | .hbm, ⟨73, _⟩ => ⟨S3300000x16, .f32⟩
  | .hbm, ⟨74, _⟩ => ⟨S3300000x16, .f32⟩
  | .hbm, ⟨75, _⟩ => ⟨S3300000x16, .f32⟩
  | .hbm, ⟨76, _⟩ => ⟨S_, .f32⟩
  | .hbm, ⟨77, _⟩ => ⟨S100000x16, .f32⟩
  | .hbm, ⟨78, _⟩ => ⟨S3300000x1, .i32⟩
  | .hbm, ⟨79, _⟩ => ⟨S100000x16, .f32⟩
  | .hbm, ⟨80, _⟩ => ⟨S1x16, .f32⟩
  | .hbm, ⟨81, _⟩ => ⟨S100000x16, .f32⟩
  | .local _ .vmem, ⟨0, _⟩ => ⟨S5000x512, .f32⟩
  | .local _ .vmem, ⟨1, _⟩ => ⟨S5000x512, .f32⟩
  | .local _ .vmem, ⟨2, _⟩ => ⟨S512x64, .f32⟩
  | .local _ .vmem, ⟨3, _⟩ => ⟨S5000x64, .f32⟩
  | .local _ .vmem, ⟨4, _⟩ => ⟨S5000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S10000x16, .f32⟩
  | .local _ .vmem, ⟨13, _⟩ => ⟨S1x16, .f32⟩
  | .local _ .vmem, ⟨14, _⟩ => ⟨S10000x16, .f32⟩
  | .local _ .vmem, ⟨15, _⟩ => ⟨S10000x16, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S5000x64_S5000x64_0_0 : ∀ a, (![0, 0] : Fin 2 → Nat) a + S5000x64.size a ≤ S5000x64.size a
  h_S5000x64 : 0 < S5000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x16_S64x16_0_0 : ∀ a, (![0, 0] : Fin 2 → Nat) a + S64x16.size a ≤ S64x16.size a
  h_S64x16 : 0 < S64x16.numel
  inb_S10000x16_S10000x16_0_0 : ∀ a, (![0, 0] : Fin 2 → Nat) a + S10000x16.size a ≤ S10000x16.size a
  h_S10000x16 : 0 < S10000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  reduces_S10000x16_S10000 : S10000x16.Reduces [1] S10000
  shapeCasts_S10000_S10000x1 : S10000.ShapeCasts S10000x1
  broadcasts_S10000x1_S10000x16 : S10000x1.Broadcasts S10000x16
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x512_S512x64_S5000x64_1_0_0_1_n_n_wf : DotDims.WF S5000x512 S512x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x16_S10000x16_1_0_0_1_n_n_wf : DotDims.WF S10000x64 S64x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x16.size a ≤ S64x16.size a
  hwx1_2 : ∀ i : grid1.Coords, EltTy.bits .f32 = 32 ∨ (Rect.block (s := S64x16) S64x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x16.size a ≤ S100000x16.size a
  hwx1_3 : ∀ i : grid1.Coords, EltTy.bits .f32 = 32 ∨ (Rect.block (s := S100000x16) S10000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x16.size a ≤ S100000x16.size a
  hwx2_2 : ∀ i : grid2.Coords, EltTy.bits .f32 = 32 ∨ (Rect.block (s := S100000x16) S10000x16.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x512_S512x64_S5000x64_1_0_0_1_n_n : DotDims S5000x512 S512x64 S5000x64 where
  lhsContracting := [1]
  rhsContracting := [0]
  lhsNonContracting := [0]
  rhsNonContracting := [1]
  lhsBatch := []
  rhsBatch := []
  wf := dot_S5000x512_S512x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S10000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x64 : Shape := ⟨2, ![512, 64]⟩
abbrev S64 : Shape := ⟨1, ![64]⟩
abbrev S64x16 : Shape := ⟨2, ![64, 16]⟩
abbrev S16 : Shape := ⟨1, ![16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x16 : Shape := ⟨2, ![100000, 16]⟩
abbrev S3300000x16 : Shape := ⟨2, ![3300000, 16]⟩
abbrev S1x16 : Shape := ⟨2, ![1, 16]⟩
abbrev S100000x1 : Shape := ⟨2, ![100000, 1]⟩

abbrev nBuf : Space → Nat
  | .hbm => 123
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x64, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S3300000x1, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x64, .f32⟩
  | .hbm, ⟨57, _⟩ => ⟨S3300000x64, .f32⟩
  | .hbm, ⟨58, _⟩ => ⟨S3300000x64, .f32⟩
  | .hbm, ⟨59, _⟩ => ⟨S_, .f32⟩
  | .hbm, ⟨60, _⟩ => ⟨S100000x64, .f32⟩
  | .hbm, ⟨61, _⟩ => ⟨S3300000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x16, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000, .f32⟩
  | .hbm, ⟨79, _⟩ => ⟨S_, .i32⟩
  | .hbm, ⟨80, _⟩ => ⟨S3300000, .i32⟩
  | .hbm, ⟨81, _⟩ => ⟨S3300000, .i1⟩
  | .hbm, ⟨82, _⟩ => ⟨S_, .i32⟩
  | .hbm, ⟨83, _⟩ => ⟨S3300000, .i32⟩
  | .hbm, ⟨84, _⟩ => ⟨S3300000, .i32⟩
  | .hbm, ⟨85, _⟩ => ⟨S3300000, .i32⟩
  | .hbm, ⟨86, _⟩ => ⟨S3300000x1, .i32⟩
  | .hbm, ⟨87, _⟩ => ⟨S3300000, .f32⟩
  | .hbm, ⟨88, _⟩ => ⟨S3300000, .f32⟩
  | .hbm, ⟨89, _⟩ => ⟨S3300000x1, .f32⟩
  | .hbm, ⟨90, _⟩ => ⟨S_, .i32⟩
  | .hbm, ⟨91, _⟩ => ⟨S3300000, .i32⟩
  | .hbm, ⟨92, _⟩ => ⟨S3300000, .i1⟩
  | .hbm, ⟨93, _⟩ => ⟨S_, .i32⟩
  | .hbm, ⟨94, _⟩ => ⟨S3300000, .i32⟩
  | .hbm, ⟨95, _⟩ => ⟨S3300000, .i32⟩
  | .hbm, ⟨96, _⟩ => ⟨S3300000, .i32⟩
  | .hbm, ⟨97, _⟩ => ⟨S3300000x1, .i32⟩
  | .hbm, ⟨98, _⟩ => ⟨S3300000x16, .f32⟩
  | .hbm, ⟨99, _⟩ => ⟨S3300000x16, .f32⟩
  | .hbm, ⟨100, _⟩ => ⟨S3300000x16, .f32⟩
  | .hbm, ⟨101, _⟩ => ⟨S_, .f32⟩
  | .hbm, ⟨102, _⟩ => ⟨S100000x16, .f32⟩
  | .hbm, ⟨103, _⟩ => ⟨S3300000x1, .i32⟩
  | .hbm, ⟨104, _⟩ => ⟨S100000x16, .f32⟩
  | .hbm, ⟨105, _⟩ => ⟨S1x16, .f32⟩
  | .hbm, ⟨106, _⟩ => ⟨S100000x16, .f32⟩
  | .hbm, ⟨107, _⟩ => ⟨S100000x16, .f32⟩
  | .hbm, ⟨108, _⟩ => ⟨S_, .f32⟩
  | .hbm, ⟨109, _⟩ => ⟨S100000, .f32⟩
  | .hbm, ⟨110, _⟩ => ⟨S_, .f32⟩
  | .hbm, ⟨111, _⟩ => ⟨S100000, .f32⟩
  | .hbm, ⟨112, _⟩ => ⟨S100000, .f32⟩
  | .hbm, ⟨113, _⟩ => ⟨S100000x1, .f32⟩
  | .hbm, ⟨114, _⟩ => ⟨S100000x16, .f32⟩
  | .hbm, ⟨115, _⟩ => ⟨S100000x16, .f32⟩
  | .hbm, ⟨116, _⟩ => ⟨S100000x16, .f32⟩
  | .hbm, ⟨117, _⟩ => ⟨S_, .f32⟩
  | .hbm, ⟨118, _⟩ => ⟨S100000, .f32⟩
  | .hbm, ⟨119, _⟩ => ⟨S100000x1, .f32⟩
  | .hbm, ⟨120, _⟩ => ⟨S100000x1, .f32⟩
  | .hbm, ⟨121, _⟩ => ⟨S100000x16, .f32⟩
  | .hbm, ⟨122, _⟩ => ⟨S100000x16, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_c_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_call2_cst : Ref sig .tc := ⟨.hbm, 108, rfl⟩
abbrev main_call2_v0 : Ref sig .tc := ⟨.hbm, 109, rfl⟩
abbrev main_call2_cst_0 : Ref sig .tc := ⟨.hbm, 110, rfl⟩
abbrev main_call2_v1 : Ref sig .tc := ⟨.hbm, 111, rfl⟩
abbrev main_call2_v2 : Ref sig .tc := ⟨.hbm, 112, rfl⟩
abbrev main_call2_v3 : Ref sig .tc := ⟨.hbm, 113, rfl⟩
abbrev main_call2_v4 : Ref sig .tc := ⟨.hbm, 114, rfl⟩
abbrev main_call2_v5 : Ref sig .tc := ⟨.hbm, 115, rfl⟩
abbrev main_call2_v6 : Ref sig .tc := ⟨.hbm, 116, rfl⟩
abbrev main_call2_cst_1 : Ref sig .tc := ⟨.hbm, 117, rfl⟩
abbrev main_call2_v7 : Ref sig .tc := ⟨.hbm, 118, rfl⟩
abbrev main_call2_v8 : Ref sig .tc := ⟨.hbm, 119, rfl⟩
abbrev main_call2_v9 : Ref sig .tc := ⟨.hbm, 120, rfl⟩
abbrev main_call2_v10 : Ref sig .tc := ⟨.hbm, 121, rfl⟩
abbrev main_v80 : Ref sig .tc := ⟨.hbm, 122, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  scatter_S100000_S3300000x1_S3300000_n_0_0_1_wf : ScatterDims.WF S100000 S3300000x1 S3300000 [] [0] [0] 1
  dot_S100000x512_S512x64_S100000x64_1_0_0_1_n_n_wf : DotDims.WF S100000x512 S512x64 S100000x64 [1] [0] [0] [1] [] []
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x16_S100000x16_1_0_0_1_n_n_wf : DotDims.WF S100000x64 S64x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

class Facts : Prop extends Facts₀ where

variable [Facts]
-- ==== Proof.Spec.lean ====
/-
  What the two programs compute, layer by layer, as functions of whole arrays read index by index on the extended
  reals. A two-layer graph convolution over 100000 nodes: features are projected (512 → 64), aggregated along the
  edges, biased and rectified, projected again (64 → 16), aggregated again, biased, and normalised row by row by a
  logarithmic softmax. The aggregation along edges is the same sequence of gather, scale and scatter-add in both
  programs; what differs is how the three dense stages are spelt (blocks of rows through a matrix unit and lane
  reductions on one side, whole-array contractions and reductions on the other). These three functions are what both
  spellings denote.
-/
import Idealize.ShloMosaic.Lib.ValueIdx
import Idealize.ShloMosaic.PureOps.Ideal

noncomputable section

namespace Cert.Gcn

open Idealize.ShloMosaic Idealize.ShloMosaic.ValueIdx
open scoped BigOperators

/-- A one-row matrix read as the vector along its row. -/
def rowOf {n : Nat} (r : (⟨2, ![1, n]⟩ : Shape).Idx → EReal) : (⟨1, ![n]⟩ : Shape).Idx → EReal :=
  fun j => r (ix2 (0 : Fin 1) (j 0 : Fin n))

/-- The first projection: entry (r, q) is row r of `x` against column q of `w`, a sum of 512 products. -/
def project1 (x : (⟨2, ![100000, 512]⟩ : Shape).Idx → EReal) (w : (⟨2, ![512, 64]⟩ : Shape).Idx → EReal) :
    (⟨2, ![100000, 64]⟩ : Shape).Idx → EReal :=
  fun i => ∑ k : Fin 512, x (ix2 (i 0 : Fin 100000) k) * w (ix2 k (i 1 : Fin 64))

/-- The rectified, biased aggregate projected: entry (r, q) is the sum over the 64 hidden features k of
    max (a(r, k) + b(k), 0) · w(k, q). The zero is written as the word both programs print for it. -/
def project2 (a : (⟨2, ![100000, 64]⟩ : Shape).Idx → EReal) (b : (⟨1, ![64]⟩ : Shape).Idx → EReal)
    (w : (⟨2, ![64, 16]⟩ : Shape).Idx → EReal) : (⟨2, ![100000, 16]⟩ : Shape).Idx → EReal :=
  fun i => ∑ k : Fin 64,
    max (a (ix2 (i 0 : Fin 100000) k) + b (ix1 k)) (Ideal.ofBits .f32 0x00000000#32) * w (ix2 k (i 1 : Fin 16))

/-- Row r of the biased aggregate: the 16 class scores z(j) = a(r, j) + b(j). -/
def scores (a : (⟨2, ![100000, 16]⟩ : Shape).Idx → EReal) (b : (⟨1, ![16]⟩ : Shape).Idx → EReal) (r : Fin 100000) :
    Fin 16 → EReal :=
  fun j => a (ix2 r j) + b (ix1 j)

/-- The row's maximum as both programs take it: the fold of max over the 16 scores from −∞ (the word 0xFF800000),
    then once more against −∞. -/
def rowMax (z : Fin 16 → EReal) : EReal :=
  max (Ideal.ofBits .f32 0xFF800000#32) ((Finset.univ : Finset (Fin 16)).fold max (Ideal.ofBits .f32 0xFF800000#32) z)

/-- The logarithmic softmax of the biased aggregate, row by row: (z(q) − M) − log Σ_j exp (z(j) − M), M the row's maximum. -/
def logSoftmax (a : (⟨2, ![100000, 16]⟩ : Shape).Idx → EReal) (b : (⟨1, ![16]⟩ : Shape).Idx → EReal) :
    (⟨2, ![100000, 16]⟩ : Shape).Idx → EReal :=
  fun i =>
    (scores a b (i 0 : Fin 100000) (i 1 : Fin 16) - rowMax (scores a b (i 0 : Fin 100000)))
      - Ideal.log (∑ j : Fin 16, Ideal.exp (scores a b (i 0 : Fin 100000) j - rowMax (scores a b (i 0 : Fin 100000))))

end Cert.Gcn

end
-- ==== Proof.KReg0.lean ====
/-
  Region 0, read as a value. Each of the 20 grid points takes rows 5000·t … 5000·t + 4999 of `x` and the whole of `w`,
  and writes back the 5000 × 64 block of their product: at the exact reals the matrix unit's accumulation into a zero
  block is the plain sum over the 512 contracted features, and the narrowing of the operands to a shorter float
  format changes nothing. Entry (p, q) of block t is therefore entry (5000·t + p, q) of the projection of the whole
  arrays, the blocks tile the 100000 rows, and the array the region leaves is the projection.
-/
import proofs.«142692_j35364760715853_1_alg».proof.Proof.Gen.KernelIdeal.Frame
import proofs.«142692_j35364760715853_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Reg0

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

/-! ## The block product at an index -/

abbrev D0 := dot_S5000x512_S512x64_S5000x64_1_0_0_1_n_n

theorem lhs_0 (i : S5000x64.Idx) (q : D0.contr.Idx) : (D0.lhsIdx i q 0).val = (i 0).val := by
  unfold DotDims.lhsIdx
  rw [dif_neg (show ¬(0 : Fin S5000x512.rank) ∈ dot_S5000x512_S512x64_S5000x64_1_0_0_1_n_n.lhsBatch by decide), dif_pos (show (0 : Fin S5000x512.rank) ∈ dot_S5000x512_S512x64_S5000x64_1_0_0_1_n_n.lhsNonContracting by decide)]
  rfl
theorem lhs_1 (i : S5000x64.Idx) (q : D0.contr.Idx) : (D0.lhsIdx i q 1).val = (q ⟨0, by decide⟩).val :=
  dot_S5000x512_S512x64_S5000x64_1_0_0_1_n_n.lhsIdx_val_of_single rfl i q
theorem rhs_0 (i : S5000x64.Idx) (q : D0.contr.Idx) : (D0.rhsIdx i q 0).val = (q ⟨0, by decide⟩).val :=
  dot_S5000x512_S512x64_S5000x64_1_0_0_1_n_n.rhsIdx_val_of_single rfl i q
theorem rhs_1 (i : S5000x64.Idx) (q : D0.contr.Idx) : (D0.rhsIdx i q 1).val = (i 1).val := by
  unfold DotDims.rhsIdx
  rw [dif_neg (show ¬(1 : Fin S512x64.rank) ∈ dot_S5000x512_S512x64_S5000x64_1_0_0_1_n_n.rhsBatch by decide), dif_pos (show (1 : Fin S512x64.rank) ∈ dot_S5000x512_S512x64_S5000x64_1_0_0_1_n_n.rhsNonContracting by decide)]
  rfl

/-- The body's stored value at entry (p, q) of the block: row p of the loaded rows against column q of the loaded
    weights. -/
theorem pay_apply (x0 : Vec Ideal S5000x512 .f32) (x1 : Vec Ideal S512x64 .f32) (p : Fin 5000) (q : Fin 64) :
    k0_pay1 (F := Ideal) x0 x1 (ix2 p q) = ∑ k : Fin 512, x0 (ix2 p k) * x1 (ix2 k q) := by
  unfold k0_pay1
  simp only [matmul]
  rw [Ideal.matmul_constant_zero_apply, ← Equiv.sum_comp (ValueIdx.contrEquiv1 D0 512 rfl rfl).symm]
  refine Finset.sum_congr rfl fun k _ => ?_
  have hk := ValueIdx.contrEquiv1_symm_val D0 512 rfl rfl k
  have el : D0.lhsIdx (ix2 p q) ((ValueIdx.contrEquiv1 D0 512 rfl rfl).symm k) = ix2 p k := funext fun a => Fin.ext (by
    match a with
    | ⟨0, _⟩ => exact lhs_0 _ _
    | ⟨1, _⟩ => exact (lhs_1 _ _).trans hk)
  have er : D0.rhsIdx (ix2 p q) ((ValueIdx.contrEquiv1 D0 512 rfl rfl).symm k) = ix2 k q := funext fun a => Fin.ext (by
    match a with
    | ⟨0, _⟩ => exact (rhs_0 _ _).trans hk
    | ⟨1, _⟩ => exact rhs_1 _ _)
  show x0 (D0.lhsIdx (ix2 p q) _) * x1 (D0.rhsIdx (ix2 p q) _) = _
  rw [el, er]

/-! ## From blocks to the array -/

/-- Entry j of a block product is entry i of the projection of the whole arrays, when the block's rows are rows
    5000·T … of `x`, its weights are `w`, and i is j moved down by 5000·T rows. -/
theorem block_entry (x : S100000x512.Idx → EReal) (w : S512x64.Idx → EReal)
    (x0 : Vec Ideal S5000x512 .f32) (x1 : Vec Ideal S512x64 .f32) (T : Nat)
    (h0 : ∀ (p : Fin 5000) (k : Fin 512) (r : Fin 100000), r.val = T * 5000 + p.val → x0 (ix2 p k) = x (ix2 r k))
    (h1 : ∀ (k : Fin 512) (q : Fin 64), x1 (ix2 k q) = w (ix2 k q))
    (j : S5000x64.Idx) (i : S100000x64.Idx) (hi0 : (i 0).val = T * 5000 + (j 0).val) (hi1 : (i 1).val = (j 1).val) :
    k0_pay1 (F := Ideal) x0 x1 j = Cert.Gcn.project1 x w i := by
  obtain ⟨p, q, rfl⟩ : ∃ (p : Fin 5000) (q : Fin 64), j = ix2 p q := ⟨j 0, j 1, eq_ix2 j⟩
  rw [pay_apply]
  unfold Cert.Gcn.project1
  refine Finset.sum_congr rfl fun k _ => ?_
  rw [h0 p k (i 0) hi0, h1 k q]
  have e : (i 1 : Fin 64) = q := Fin.ext hi1
  rw [e]

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the rows' window moves with the output's, the weights' window
    stays, and the output's block index stays below 20. -/
theorem idx_facts : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 19 :=
  (by decide +kernel : ∀ t : Fin grid0.N, _)

/-- Every block of rows is some point's. -/
theorem idx_onto : ∀ q0 : Fin 20, ∃ t : Fin cfg0.N, win0_2.index t (0 : Fin 2) = q0.val :=
  (by decide +kernel : ∀ q0 : Fin 20, ∃ t : Fin grid0.N, win0_2.index t (0 : Fin 2) = q0.val)

/-- What point `t` writes back is block `t` of the projection of the arrays the region finds. -/
theorem flushed_eq (c : Dev nD) (t : Fin cfg0.N) :
    (dat0 V c).flushed 2 t
      = ((cfg0.win 2).blk t).view.read (Elt Ideal) (Cert.Gcn.project1 (V c main_arg0) (V c main_arg2)) := by
  show (cfg0.win 2).cut (grid0.coords t) ((dat0 V c).after 2 t) = _
  rw [after0_2]
  unfold out0_2
  rw [View.canon_unit_zero hz]
  simp only [View.ld_unit_zero (S := S5000x512) hz, View.ld_unit_zero (S := S512x64) hz]
  obtain ⟨e0, e1, e2, e3, e4, e5⟩ := idx_facts t
  funext j
  show k0_pay1 (F := Ideal) (iblk0 V c 0 t) (iblk0 V c 1 t) j
    = Cert.Gcn.project1 (V c main_arg0) (V c main_arg2) (((cfg0.win 2).blk t).view.emb j)
  refine block_entry (V c main_arg0) (V c main_arg2) (iblk0 V c 0 t) (iblk0 V c 1 t) (win0_2.index t (0 : Fin 2)) ?_ ?_ j _ ?_ ?_
  · intro p k r hr
    show V c main_arg0 (((cfg0.win 0).blk t).view.emb (ix2 p k)) = V c main_arg0 (ix2 r k)
    refine congrArg (V c main_arg0) (funext fun a => Fin.ext ?_)
    match a with
    | ⟨0, _⟩ => show win0_0.index t (0 : Fin 2) * 5000 + 1 * p.val = r.val; omega
    | ⟨1, _⟩ => show win0_0.index t (1 : Fin 2) * 512 + 1 * k.val = k.val; omega
  · intro k q
    show V c main_arg2 (((cfg0.win 1).blk t).view.emb (ix2 k q)) = V c main_arg2 (ix2 k q)
    refine congrArg (V c main_arg2) (funext fun a => Fin.ext ?_)
    match a with
    | ⟨0, _⟩ => show win0_1.index t (0 : Fin 2) * 512 + 1 * k.val = k.val; omega
    | ⟨1, _⟩ => show win0_1.index t (1 : Fin 2) * 64 + 1 * q.val = q.val; omega
  · show win0_2.index t (0 : Fin 2) * 5000 + 1 * (j 0).val = win0_2.index t (0 : Fin 2) * 5000 + (j 0).val; omega
  · show win0_2.index t (1 : Fin 2) * 64 + 1 * (j 1).val = (j 1).val; omega

/-- An index of the array is in point `t`'s block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v31).slice (win0_2.rect t)).set ↔ _
  rw [View.set_slice_whole, Rect.mem_set_unit]
  exact Iff.rfl

/-- The twenty blocks of 5000 rows tile the 100000 rows: row r is in the block of point r / 5000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 5000, by omega⟩
  obtain ⟨e0, e1, e2, e3, e4, e5⟩ := idx_facts t
  have q0 : win0_2.index t (0 : Fin 2) = (i 0).val / 5000 := ht
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- THE ARRAY the region leaves: the projection of the two arrays it finds. -/
theorem final (c : Dev nD) :
    (dat0 V c).arrAt 2 cfg0.N = Cert.Gcn.project1 (V c main_arg0) (V c main_arg2) :=
  (dat0 V c).arrAt_eq_of_cover 2 _ (fun t _ => flushed_eq V c t) cover

end Cert.KernelIdeal.Reg0

end
-- ==== Proof.KReg1.lean ====
/-
  Region 1, read as a value. Each of the 10 grid points takes rows 10000·t … of the aggregated hidden features, the
  one row of biases and the whole 64 × 16 weight matrix; it adds the bias along every row, replaces negative entries
  by zero, and multiplies by the weights. At the exact reals the product into a zero block is the sum over the 64
  hidden features and the narrowing casts are the identity, so entry (p, q) of block t is entry (10000·t + p, q) of
  the rectified, biased, projected array; the ten blocks tile the 100000 rows.
-/
import proofs.«142692_j35364760715853_1_alg».proof.Proof.Gen.KernelIdeal.Frame
import proofs.«142692_j35364760715853_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

/-! ## The block product at an index -/

abbrev D1 := dot_S10000x64_S64x16_S10000x16_1_0_0_1_n_n

theorem lhs_0 (i : S10000x16.Idx) (q : D1.contr.Idx) : (D1.lhsIdx i q 0).val = (i 0).val := by
  unfold DotDims.lhsIdx
  rw [dif_neg (show ¬(0 : Fin S10000x64.rank) ∈ dot_S10000x64_S64x16_S10000x16_1_0_0_1_n_n.lhsBatch by decide), dif_pos (show (0 : Fin S10000x64.rank) ∈ dot_S10000x64_S64x16_S10000x16_1_0_0_1_n_n.lhsNonContracting by decide)]
  rfl
theorem lhs_1 (i : S10000x16.Idx) (q : D1.contr.Idx) : (D1.lhsIdx i q 1).val = (q ⟨0, by decide⟩).val :=
  dot_S10000x64_S64x16_S10000x16_1_0_0_1_n_n.lhsIdx_val_of_single rfl i q
theorem rhs_0 (i : S10000x16.Idx) (q : D1.contr.Idx) : (D1.rhsIdx i q 0).val = (q ⟨0, by decide⟩).val :=
  dot_S10000x64_S64x16_S10000x16_1_0_0_1_n_n.rhsIdx_val_of_single rfl i q
theorem rhs_1 (i : S10000x16.Idx) (q : D1.contr.Idx) : (D1.rhsIdx i q 1).val = (i 1).val := by
  unfold DotDims.rhsIdx
  rw [dif_neg (show ¬(1 : Fin S64x16.rank) ∈ dot_S10000x64_S64x16_S10000x16_1_0_0_1_n_n.rhsBatch by decide), dif_pos (show (1 : Fin S64x16.rank) ∈ dot_S10000x64_S64x16_S10000x16_1_0_0_1_n_n.rhsNonContracting by decide)]
  rfl

/-- The left factor at (p, k): the loaded aggregate plus the bias of feature k, rectified. -/
theorem relu_apply (x0 : Vec Ideal S10000x64 .f32) (x1 : Vec Ideal S1x64 .f32) (p : Fin 10000) (k : Fin 64) :
    maximumf (addf (shapeCast S10000x64 x0 shapeCasts_S10000x64_S10000x64)
        (broadcastTo S10000x64 (shapeCast S1x64 x1 shapeCasts_S1x64_S1x64) broadcasts_S1x64_S10000x64))
      (broadcast S10000x64 (Scalar.ofBits (F := Ideal) .f32 0x00000000#32)) (ix2 p k)
      = max (x0 (ix2 p k) + x1 (ix2 (0 : Fin 1) k)) (Ideal.ofBits .f32 0x00000000#32) := by
  rw [shapeCast_self, shapeCast_self]
  show max (x0 (ix2 p k) + broadcastTo S10000x64 x1 broadcasts_S1x64_S10000x64 (ix2 p k)) _ = _
  rw [broadcastTo_1b_ab_apply]
  rfl

/-- The body's stored value at entry (p, q) of the block. -/
theorem pay_apply (x0 : Vec Ideal S10000x64 .f32) (x1 : Vec Ideal S1x64 .f32) (x2 : Vec Ideal S64x16 .f32)
    (p : Fin 10000) (q : Fin 16) :
    k1_pay1 (F := Ideal) x0 x1 x2 (ix2 p q)
      = ∑ k : Fin 64, max (x0 (ix2 p k) + x1 (ix2 (0 : Fin 1) k)) (Ideal.ofBits .f32 0x00000000#32) * x2 (ix2 k q) := by
  unfold k1_pay1
  simp only [matmul]
  rw [Ideal.matmul_constant_zero_apply, ← Equiv.sum_comp (ValueIdx.contrEquiv1 D1 64 rfl rfl).symm]
  refine Finset.sum_congr rfl fun k _ => ?_
  have hk := ValueIdx.contrEquiv1_symm_val D1 64 rfl rfl k
  have el : D1.lhsIdx (ix2 p q) ((ValueIdx.contrEquiv1 D1 64 rfl rfl).symm k) = ix2 p k := funext fun a => Fin.ext (by
    match a with
    | ⟨0, _⟩ => exact lhs_0 _ _
    | ⟨1, _⟩ => exact (lhs_1 _ _).trans hk)
  have er : D1.rhsIdx (ix2 p q) ((ValueIdx.contrEquiv1 D1 64 rfl rfl).symm k) = ix2 k q := funext fun a => Fin.ext (by
    match a with
    | ⟨0, _⟩ => exact (rhs_0 _ _).trans hk
    | ⟨1, _⟩ => exact rhs_1 _ _)
  show maximumf (addf (shapeCast S10000x64 x0 shapeCasts_S10000x64_S10000x64)
        (broadcastTo S10000x64 (shapeCast S1x64 x1 shapeCasts_S1x64_S1x64) broadcasts_S1x64_S10000x64))
      (broadcast S10000x64 (Scalar.ofBits (F := Ideal) .f32 0x00000000#32)) (D1.lhsIdx (ix2 p q) _)
      * x2 (D1.rhsIdx (ix2 p q) _) = _
  rw [el, er, relu_apply]

/-! ## From blocks to the array -/

/-- Entry j of a block is entry i of the whole rectified, biased, projected array, when the block's rows are rows
    10000·T … of `a`, its bias row is `b`, its weights are `w`, and i is j moved down by 10000·T rows. -/
theorem block_entry (a : S100000x64.Idx → EReal) (b : (⟨1, ![64]⟩ : Shape).Idx → EReal) (w : S64x16.Idx → EReal)
    (x0 : Vec Ideal S10000x64 .f32) (x1 : Vec Ideal S1x64 .f32) (x2 : Vec Ideal S64x16 .f32) (T : Nat)
    (h0 : ∀ (p : Fin 10000) (k : Fin 64) (r : Fin 100000), r.val = T * 10000 + p.val → x0 (ix2 p k) = a (ix2 r k))
    (h1 : ∀ k : Fin 64, x1 (ix2 (0 : Fin 1) k) = b (ix1 k))
    (h2 : ∀ (k : Fin 64) (q : Fin 16), x2 (ix2 k q) = w (ix2 k q))
    (j : S10000x16.Idx) (i : S100000x16.Idx) (hi0 : (i 0).val = T * 10000 + (j 0).val) (hi1 : (i 1).val = (j 1).val) :
    k1_pay1 (F := Ideal) x0 x1 x2 j = Cert.Gcn.project2 a b w i := by
  obtain ⟨p, q, rfl⟩ : ∃ (p : Fin 10000) (q : Fin 16), j = ix2 p q := ⟨j 0, j 1, eq_ix2 j⟩
  rw [pay_apply]
  unfold Cert.Gcn.project2
  refine Finset.sum_congr rfl fun k _ => ?_
  rw [h0 p k (i 0) hi0, h1 k, h2 k q]
  have e : (i 1 : Fin 16) = q := Fin.ext hi1
  rw [e]

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the aggregate's window moves with the output's, the bias row's
    and the weights' windows stay, and the output's block index stays below 10. -/
theorem idx_facts : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 9 :=
  (by decide +kernel : ∀ t : Fin grid1.N, _)

/-- Every block of rows is some point's. -/
theorem idx_onto : ∀ q0 : Fin 10, ∃ t : Fin cfg1.N, win1_3.index t (0 : Fin 2) = q0.val :=
  (by decide +kernel : ∀ q0 : Fin 10, ∃ t : Fin grid1.N, win1_3.index t (0 : Fin 2) = q0.val)

/-- What point `t` writes back is block `t` of the rectified, biased, projected array of what the region finds. -/
theorem flushed_eq (c : Dev nD) (t : Fin cfg1.N) :
    (dat1 V c).flushed 3 t
      = ((cfg1.win 3).blk t).view.read (Elt Ideal)
          (Cert.Gcn.project2 (V c main_v43) (Cert.Gcn.rowOf (V c main_v44)) (V c main_arg4)) := by
  show (cfg1.win 3).cut (grid1.coords t) ((dat1 V c).after 3 t) = _
  rw [after1_3]
  unfold out1_3
  rw [View.canon_unit_zero hz]
  simp only [View.ld_unit_zero (S := S10000x64) hz, View.ld_unit_zero (S := S1x64) hz, View.ld_unit_zero (S := S64x16) hz]
  obtain ⟨e0, e1, e2, e3, e4, e5, e6, e7⟩ := idx_facts t
  funext j
  show k1_pay1 (F := Ideal) (iblk1 V c 0 t) (iblk1 V c 1 t) (iblk1 V c 2 t) j
    = Cert.Gcn.project2 (V c main_v43) (Cert.Gcn.rowOf (V c main_v44)) (V c main_arg4) (((cfg1.win 3).blk t).view.emb j)
  refine block_entry (V c main_v43) (Cert.Gcn.rowOf (V c main_v44)) (V c main_arg4)
    (iblk1 V c 0 t) (iblk1 V c 1 t) (iblk1 V c 2 t) (win1_3.index t (0 : Fin 2)) ?_ ?_ ?_ j _ ?_ ?_
  · intro p k r hr
    show V c main_v43 (((cfg1.win 0).blk t).view.emb (ix2 p k)) = V c main_v43 (ix2 r k)
    refine congrArg (V c main_v43) (funext fun a => Fin.ext ?_)
    match a with
    | ⟨0, _⟩ => show win1_0.index t (0 : Fin 2) * 10000 + 1 * p.val = r.val; omega
    | ⟨1, _⟩ => show win1_0.index t (1 : Fin 2) * 64 + 1 * k.val = k.val; omega
  · intro k
    show V c main_v44 (((cfg1.win 1).blk t).view.emb (ix2 (0 : Fin 1) k)) = V c main_v44 (ix2 (0 : Fin 1) k)
    refine congrArg (V c main_v44) (funext fun a => Fin.ext ?_)
    match a with
    | ⟨0, _⟩ => show win1_1.index t (0 : Fin 2) * 1 + 1 * 0 = 0; omega
    | ⟨1, _⟩ => show win1_1.index t (1 : Fin 2) * 64 + 1 * k.val = k.val; omega
  · intro k q
    show V c main_arg4 (((cfg1.win 2).blk t).view.emb (ix2 k q)) = V c main_arg4 (ix2 k q)
    refine congrArg (V c main_arg4) (funext fun a => Fin.ext ?_)
    match a with
    | ⟨0, _⟩ => show win1_2.index t (0 : Fin 2) * 64 + 1 * k.val = k.val; omega
    | ⟨1, _⟩ => show win1_2.index t (1 : Fin 2) * 16 + 1 * q.val = q.val; omega
  · show win1_3.index t (0 : Fin 2) * 10000 + 1 * (j 0).val = win1_3.index t (0 : Fin 2) * 10000 + (j 0).val; omega
  · show win1_3.index t (1 : Fin 2) * 16 + 1 * (j 1).val = (j 1).val; omega

/-- An index of the array is in point `t`'s block iff each coordinate is in the block's range on its axis. -/
theorem mem_blk (t : Fin cfg1.N) (i : S100000x16.Idx) :
    i ∈ ((cfg1.win 3).blk t).view.set ↔ ∀ a : Fin 2, win1_3.index t a * S10000x16.size a ≤ (i a).val ∧ (i a).val < win1_3.index t a * S10000x16.size a + S10000x16.size a := by
  show i ∈ ((View.whole main_v45).slice (win1_3.rect t)).set ↔ _
  rw [View.set_slice_whole, Rect.mem_set_unit]
  exact Iff.rfl

/-- The ten blocks of 10000 rows tile the 100000 rows: row r is in the block of point r / 10000. -/
theorem cover (i : S100000x16.Idx) : ∃ t : Fin cfg1.N, (cfg1.win 3).flush t = true ∧ i ∈ ((cfg1.win 3).blk t).view.set := by
  have hi0 : (i 0).val < 100000 := (i 0).isLt
  have hi1 : (i 1).val < 16 := (i 1).isLt
  obtain ⟨t, ht⟩ := idx_onto ⟨(i 0).val / 10000, by omega⟩
  obtain ⟨e0, e1, e2, e3, e4, e5, e6, e7⟩ := idx_facts t
  have q0 : win1_3.index t (0 : Fin 2) = (i 0).val / 10000 := ht
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 16 ≤ (i 1).val ∧ (i 1).val < win1_3.index t (1 : Fin 2) * 16 + 16; omega

/-- THE ARRAY the region leaves: the rectified, biased aggregate projected by the weights it finds. -/
theorem final (c : Dev nD) :
    (dat1 V c).arrAt 3 cfg1.N
      = Cert.Gcn.project2 (V c main_v43) (Cert.Gcn.rowOf (V c main_v44)) (V c main_arg4) :=
  (dat1 V c).arrAt_eq_of_cover 3 _ (fun t _ => flushed_eq V c t) cover

end Cert.KernelIdeal.Reg1

end
-- ==== Proof.KReg2.lean ====
/-
  Region 2, read as a value. Each of the 10 grid points takes rows 10000·t … of the aggregated class scores and the
  one row of biases, adds the bias along every row, and normalises each row: it subtracts the row's maximum (a lane
  reduction from −∞, taken once more against −∞), exponentiates, sums the 16 exponentials (a lane reduction from 0),
  takes the logarithm and subtracts it. At the exact reals the two lane reductions are the fold of max and the plain
  sum over the 16 lanes, so entry (p, q) of block t is entry (10000·t + p, q) of the row-wise logarithmic softmax of
  the biased scores; the ten blocks tile the 100000 rows.
-/
import proofs.«142692_j35364760715853_1_alg».proof.Proof.Gen.KernelIdeal.Frame
import proofs.«142692_j35364760715853_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg2

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

/-! ## The body's intermediate vectors, named -/

/-- The biased scores of the block. -/
def biased (x0 : Vec Ideal S10000x16 .f32) (x1 : Vec Ideal S1x16 .f32) : FVec Ideal S10000x16 .f32 :=
  addf (shapeCast S10000x16 x0 shapeCasts_S10000x16_S10000x16)
    (broadcastTo S10000x16 (shapeCast S1x16 x1 shapeCasts_S1x16_S1x16) broadcasts_S1x16_S10000x16)

/-- Each row's maximum: the lane reduction from −∞, then once more against −∞. -/
def rowMaxV (Z : FVec Ideal S10000x16 .f32) : FVec Ideal S10000 .f32 :=
  maximumf (broadcast S10000 (Scalar.ofBits (F := Ideal) .f32 0xFF800000#32))
    (multiReduction .maximumf [1] S10000 Z 0xFF800000#32 reduces_S10000x16_S10000 (.inl rfl) rfl)

/-- A vector of one value per row laid along the 16 lanes of its row. -/
def alongRow (v : FVec Ideal S10000 .f32) : FVec Ideal S10000x16 .f32 :=
  broadcastTo S10000x16 (shapeCast S10000x1 v shapeCasts_S10000_S10000x1) broadcasts_S10000x1_S10000x16

/-- The scores less their row's maximum. -/
def shifted (Z : FVec Ideal S10000x16 .f32) : FVec Ideal S10000x16 .f32 := subf Z (alongRow (rowMaxV Z))

/-- Each row's sum of exponentials. -/
def sumExp (Z : FVec Ideal S10000x16 .f32) : FVec Ideal S10000 .f32 :=
  multiReduction .add [1] S10000 (exp (shifted Z)) 0x00000000#32 reduces_S10000x16_S10000 (.inl rfl) rfl

/-- The logarithm of each row's sum, laid along the row. -/
def logSum (Z : FVec Ideal S10000x16 .f32) : FVec Ideal S10000x16 .f32 :=
  broadcastTo S10000x16 (log (shapeCast S10000x1 (sumExp Z) shapeCasts_S10000_S10000x1)) broadcasts_S10000x1_S10000x16

/-- The body's stored value is the shifted scores less the logarithm of the row's sum of exponentials. -/
theorem pay_eq (x0 : Vec Ideal S10000x16 .f32) (x1 : Vec Ideal S1x16 .f32) :
    k2_pay1 (F := Ideal) x0 x1 = subf (shifted (biased x0 x1)) (logSum (biased x0 x1)) := rfl

/-! ## Each of them at an index -/

theorem biased_apply (x0 : Vec Ideal S10000x16 .f32) (x1 : Vec Ideal S1x16 .f32) (p : Fin 10000) (j : Fin 16) :
    biased x0 x1 (ix2 p j) = x0 (ix2 p j) + x1 (ix2 (0 : Fin 1) j) := by
  unfold biased
  rw [shapeCast_self, shapeCast_self]
  show x0 (ix2 p j) + broadcastTo S10000x16 x1 broadcasts_S1x16_S10000x16 (ix2 p j) = _
  rw [broadcastTo_1b_ab_apply]

/-- A column of one value per row, spread along the lanes, reads the row's value. -/
theorem bcol_apply (u : S10000x1.Idx → EReal) (p : Fin 10000) (q : Fin 16) :
    broadcastTo S10000x16 u broadcasts_S10000x1_S10000x16 (ix2 p q) = u (ix2 p (0 : Fin 1)) := by
  refine broadcastTo_apply u broadcasts_S10000x1_S10000x16 (ix2 p q) (ix2 p (0 : Fin 1)) fun ax => ?_
  match ax with
  | ⟨0, _⟩ => show p.val = if (10000 : Nat) = 1 then 0 else p.val; rw [if_neg (by decide)]
  | ⟨1, _⟩ => rfl

/-- A vector recast as a column reads the vector. -/
theorem ccol_apply (v : S10000.Idx → EReal) (p : Fin 10000) :
    shapeCast S10000x1 v shapeCasts_S10000_S10000x1 (ix2 p (0 : Fin 1)) = v (ix1 p) :=
  shapeCast_apply v shapeCasts_S10000_S10000x1 (ix2 p (0 : Fin 1)) (ix1 p) (by
    rw [Shape.rowMajor_val_two, Shape.rowMajor_val_one]
    show p.val = p.val * 1 + 0
    omega)

theorem alongRow_apply (v : FVec Ideal S10000 .f32) (p : Fin 10000) (q : Fin 16) :
    alongRow v (ix2 p q) = v (ix1 p) := by
  unfold alongRow
  rw [bcol_apply, ccol_apply]

/-- The row's maximum, as the fold of max over the row's 16 scores. -/
theorem rowMaxV_apply (Z : FVec Ideal S10000x16 .f32) (p : Fin 10000) :
    rowMaxV Z (ix1 p) = Cert.Gcn.rowMax (fun j => Z (ix2 p j)) := by
  unfold rowMaxV Cert.Gcn.rowMax
  show max (Ideal.ofBits .f32 0xFF800000#32)
      (multiReduction .maximumf [1] S10000 Z 0xFF800000#32 reduces_S10000x16_S10000 (.inl rfl) rfl (ix1 p)) = _
  refine congrArg (max _) ?_
  refine (Ideal.multiReduction_maximumf_single Z 0xFF800000#32 reduces_S10000x16_S10000 _ _ (ix1 p)).trans ?_
  exact congrArg ((Finset.univ : Finset (Fin 16)).fold max (Ideal.ofBits .f32 0xFF800000#32))
    (funext fun k => congrArg Z (funext fun a => Fin.ext (by match a with | ⟨0, _⟩ => rfl | ⟨1, _⟩ => rfl)))

theorem shifted_apply (Z : FVec Ideal S10000x16 .f32) (p : Fin 10000) (q : Fin 16) :
    shifted Z (ix2 p q) = Z (ix2 p q) - Cert.Gcn.rowMax (fun j => Z (ix2 p j)) := by
  unfold shifted
  show Z (ix2 p q) - alongRow (rowMaxV Z) (ix2 p q) = _
  rw [alongRow_apply, rowMaxV_apply]

/-- The row's sum of exponentials, as the plain sum over the 16 lanes. -/
theorem sumExp_apply (Z : FVec Ideal S10000x16 .f32) (p : Fin 10000) :
    sumExp Z (ix1 p) = ∑ j : Fin 16, Ideal.exp (Z (ix2 p j) - Cert.Gcn.rowMax (fun j => Z (ix2 p j))) := by
  unfold sumExp
  refine (Ideal.multiReduction_add_single (exp (shifted Z)) 0x00000000#32 reduces_S10000x16_S10000 _ _ (ix1 p)).trans ?_
  refine Finset.sum_congr rfl fun k _ => ?_
  show Ideal.exp (shifted Z (reduces_S10000x16_S10000.lift (ix1 p) k)) = _
  have e : reduces_S10000x16_S10000.lift (ix1 p) k = ix2 p k :=
    funext fun a => Fin.ext (by match a with | ⟨0, _⟩ => rfl | ⟨1, _⟩ => rfl)
  rw [e]
  exact congrArg Ideal.exp (shifted_apply Z p k)

theorem logSum_apply (Z : FVec Ideal S10000x16 .f32) (p : Fin 10000) (q : Fin 16) :
    logSum Z (ix2 p q) = Ideal.log (∑ j : Fin 16, Ideal.exp (Z (ix2 p j) - Cert.Gcn.rowMax (fun j => Z (ix2 p j)))) := by
  unfold logSum
  rw [bcol_apply]
  show Ideal.log (shapeCast S10000x1 (sumExp Z) shapeCasts_S10000_S10000x1 (ix2 p (0 : Fin 1))) = _
  rw [ccol_apply, sumExp_apply]

/-- The body's stored value at entry (p, q) of the block. -/
theorem pay_apply (x0 : Vec Ideal S10000x16 .f32) (x1 : Vec Ideal S1x16 .f32) (p : Fin 10000) (q : Fin 16) :
    k2_pay1 (F := Ideal) x0 x1 (ix2 p q)
      = (biased x0 x1 (ix2 p q) - Cert.Gcn.rowMax (fun j => biased x0 x1 (ix2 p j)))
        - Ideal.log (∑ j : Fin 16, Ideal.exp (biased x0 x1 (ix2 p j) - Cert.Gcn.rowMax (fun j => biased x0 x1 (ix2 p j)))) := by
  rw [pay_eq]
  show shifted (biased x0 x1) (ix2 p q) - logSum (biased x0 x1) (ix2 p q) = _
  rw [shifted_apply, logSum_apply]

/-! ## From blocks to the array -/

/-- Entry j of a block is entry i of the row-wise logarithmic softmax of the whole biased array, when the block's
    rows are rows 10000·T … of `a`, its bias row is `b`, and i is j moved down by 10000·T rows. -/
theorem block_entry (a : S100000x16.Idx → EReal) (b : (⟨1, ![16]⟩ : Shape).Idx → EReal)
    (x0 : Vec Ideal S10000x16 .f32) (x1 : Vec Ideal S1x16 .f32) (T : Nat)
    (h0 : ∀ (p : Fin 10000) (k : Fin 16) (r : Fin 100000), r.val = T * 10000 + p.val → x0 (ix2 p k) = a (ix2 r k))
    (h1 : ∀ k : Fin 16, x1 (ix2 (0 : Fin 1) k) = b (ix1 k))
    (j : S10000x16.Idx) (i : S100000x16.Idx) (hi0 : (i 0).val = T * 10000 + (j 0).val) (hi1 : (i 1).val = (j 1).val) :
    k2_pay1 (F := Ideal) x0 x1 j = Cert.Gcn.logSoftmax a b i := by
  obtain ⟨p, q, rfl⟩ : ∃ (p : Fin 10000) (q : Fin 16), j = ix2 p q := ⟨j 0, j 1, eq_ix2 j⟩
  rw [pay_apply]
  have hz : ∀ k : Fin 16, biased x0 x1 (ix2 p k) = Cert.Gcn.scores a b (i 0 : Fin 100000) k := fun k => by
    rw [biased_apply, h0 p k (i 0) hi0, h1 k]
    rfl
  have hf : (fun k : Fin 16 => biased x0 x1 (ix2 p k)) = Cert.Gcn.scores a b (i 0 : Fin 100000) := funext hz
  have e : (i 1 : Fin 16) = q := Fin.ext hi1
  unfold Cert.Gcn.logSoftmax
  rw [hf, hz q, e]
  refine congrArg (fun s => _ - Ideal.log s) (Finset.sum_congr rfl fun k _ => ?_)
  rw [hz k]

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the scores' window moves with the output's, the bias row's window
    stays, and the output's block index stays below 10. -/
theorem idx_facts : ∀ t : Fin cfg2.N, win2_0.index t (0 : Fin 2) = win2_2.index t (0 : Fin 2)
    ∧ win2_0.index t (1 : Fin 2) = 0
    ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every block of rows is some point's. -/
theorem idx_onto : ∀ q0 : Fin 10, ∃ t : Fin cfg2.N, win2_2.index t (0 : Fin 2) = q0.val :=
  (by decide +kernel : ∀ q0 : Fin 10, ∃ t : Fin grid2.N, win2_2.index t (0 : Fin 2) = q0.val)

/-- What point `t` writes back is block `t` of the logarithmic softmax of what the region finds. -/
theorem flushed_eq (c : Dev nD) (t : Fin cfg2.N) :
    (dat2 V c).flushed 2 t
      = ((cfg2.win 2).blk t).view.read (Elt Ideal)
          (Cert.Gcn.logSoftmax (V c main_v57) (Cert.Gcn.rowOf (V c main_v58))) := by
  show (cfg2.win 2).cut (grid2.coords t) ((dat2 V c).after 2 t) = _
  rw [after2_2]
  unfold out2_2
  rw [View.canon_unit_zero hz]
  simp only [View.ld_unit_zero (S := S10000x16) hz, View.ld_unit_zero (S := S1x16) hz]
  obtain ⟨e0, e1, e2, e3, e4, e5⟩ := idx_facts t
  funext j
  show k2_pay1 (F := Ideal) (iblk2 V c 0 t) (iblk2 V c 1 t) j
    = Cert.Gcn.logSoftmax (V c main_v57) (Cert.Gcn.rowOf (V c main_v58)) (((cfg2.win 2).blk t).view.emb j)
  refine block_entry (V c main_v57) (Cert.Gcn.rowOf (V c main_v58))
    (iblk2 V c 0 t) (iblk2 V c 1 t) (win2_2.index t (0 : Fin 2)) ?_ ?_ j _ ?_ ?_
  · intro p k r hr
    show V c main_v57 (((cfg2.win 0).blk t).view.emb (ix2 p k)) = V c main_v57 (ix2 r k)
    refine congrArg (V c main_v57) (funext fun a => Fin.ext ?_)
    match a with
    | ⟨0, _⟩ => show win2_0.index t (0 : Fin 2) * 10000 + 1 * p.val = r.val; omega
    | ⟨1, _⟩ => show win2_0.index t (1 : Fin 2) * 16 + 1 * k.val = k.val; omega
  · intro k
    show V c main_v58 (((cfg2.win 1).blk t).view.emb (ix2 (0 : Fin 1) k)) = V c main_v58 (ix2 (0 : Fin 1) k)
    refine congrArg (V c main_v58) (funext fun a => Fin.ext ?_)
    match a with
    | ⟨0, _⟩ => show win2_1.index t (0 : Fin 2) * 1 + 1 * 0 = 0; omega
    | ⟨1, _⟩ => show win2_1.index t (1 : Fin 2) * 16 + 1 * k.val = k.val; omega
  · show win2_2.index t (0 : Fin 2) * 10000 + 1 * (j 0).val = win2_2.index t (0 : Fin 2) * 10000 + (j 0).val; omega
  · show win2_2.index t (1 : Fin 2) * 16 + 1 * (j 1).val = (j 1).val; omega

/-- An index of the array is in point `t`'s block iff each coordinate is in the block's range on its axis. -/
theorem mem_blk (t : Fin cfg2.N) (i : S100000x16.Idx) :
    i ∈ ((cfg2.win 2).blk t).view.set ↔ ∀ a : Fin 2, win2_2.index t a * S10000x16.size a ≤ (i a).val ∧ (i a).val < win2_2.index t a * S10000x16.size a + S10000x16.size a := by
  show i ∈ ((View.whole main_v59).slice (win2_2.rect t)).set ↔ _
  rw [View.set_slice_whole, Rect.mem_set_unit]
  exact Iff.rfl

/-- The ten blocks of 10000 rows tile the 100000 rows: row r is in the block of point r / 10000. -/
theorem cover (i : S100000x16.Idx) : ∃ t : Fin cfg2.N, (cfg2.win 2).flush t = true ∧ i ∈ ((cfg2.win 2).blk t).view.set := by
  have hi0 : (i 0).val < 100000 := (i 0).isLt
  have hi1 : (i 1).val < 16 := (i 1).isLt
  obtain ⟨t, ht⟩ := idx_onto ⟨(i 0).val / 10000, by omega⟩
  obtain ⟨e0, e1, e2, e3, e4, e5⟩ := idx_facts t
  have q0 : win2_2.index t (0 : Fin 2) = (i 0).val / 10000 := ht
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 16 ≤ (i 1).val ∧ (i 1).val < win2_2.index t (1 : Fin 2) * 16 + 16; omega

/-- THE ARRAY the region leaves: the row-wise logarithmic softmax of the biased scores it finds. -/
theorem final (c : Dev nD) :
    (dat2 V c).arrAt 2 cfg2.N = Cert.Gcn.logSoftmax (V c main_v57) (Cert.Gcn.rowOf (V c main_v58)) :=
  (dat2 V c).arrAt_eq_of_cover 2 _ (fun t _ => flushed_eq V c t) cover

end Cert.KernelIdeal.Reg2

end
-- ==== Proof.RefStages.lean ====
/-
  The reference's three dense stages are the specification's functions. Read one operation at a time, its first
  contraction is the projection of `x` by `w1`; its bias, rectifier and second contraction are the rectified, biased
  aggregate projected by `w2`; and its biased scores followed by the outlined logarithmic softmax (a maximum over
  axis 1 from −∞, taken once more against −∞, a subtraction, an exponential, a sum over axis 1 from 0, a logarithm, a
  subtraction) are the row-wise logarithmic softmax. The stages in between, gathers and scatter-adds along the
  edges, are carried as they are.
-/
import proofs.«142692_j35364760715853_1_alg».proof.Proof.RefRead
import proofs.«142692_j35364760715853_1_alg».proof.Proof.Spec
import Idealize.ShloMosaic.Lib.ValueIdx
import Idealize.ShloMosaic.PureOps.Ideal.Laws

set_option maxRecDepth 16384

noncomputable section

namespace Cert.ReferenceIdeal.Stages

open Cert.ReferenceIdeal Cert.ReferenceIdeal.Gen Cert.ReferenceIdeal.ReadP
open Idealize.ShloMosaic Idealize.ShloMosaic.TcCoe Idealize.ShloMosaic.ValueIdx Idealize.SL.Sem
open scoped BigOperators

variable (x0 : (⟨S100000x512, .f32⟩ : BufTy).Contents (Elt Ideal)) (x1 : (⟨S2x3200000, .i32⟩ : BufTy).Contents (Elt Ideal))
  (x2 : (⟨S512x64, .f32⟩ : BufTy).Contents (Elt Ideal)) (x3 : (⟨S64, .f32⟩ : BufTy).Contents (Elt Ideal))
  (x4 : (⟨S64x16, .f32⟩ : BufTy).Contents (Elt Ideal)) (x5 : (⟨S16, .f32⟩ : BufTy).Contents (Elt Ideal))

/-- The first contraction is the projection. -/
theorem v15_eq : val_main_v15 (F := Ideal) x0 x2 = Cert.Gcn.project1 x0 x2 := by
  funext i
  obtain ⟨r, q, rfl⟩ : ∃ (r : Fin 100000) (q : Fin 64), i = ix2 r q := ⟨i 0, i 1, eq_ix2 i⟩
  rw [val_main_v15_apply]
  show _ = ∑ k : Fin 512, x0 (ix2 r k) * x2 (ix2 k q)
  refine Finset.sum_congr rfl fun k _ => ?_
  have el : lidx_main_v15 (ix2 r q) k = ix2 r k :=
    funext fun a => Fin.ext (by match a with | ⟨0, _⟩ => rfl | ⟨1, _⟩ => rfl)
  have er : ridx_main_v15 (ix2 r q) k = ix2 k q :=
    funext fun a => Fin.ext (by match a with | ⟨0, _⟩ => rfl | ⟨1, _⟩ => rfl)
  rw [el, er]

/-- Bias, rectifier and the second contraction are the second projection of the aggregate. -/
theorem v48_eq :
    val_main_v48 (F := Ideal) x0 x1 x2 x3 x4 = Cert.Gcn.project2 (val_main_v43 (F := Ideal) x0 x1 x2) x3 x4 := by
  funext i
  obtain ⟨r, q, rfl⟩ : ∃ (r : Fin 100000) (q : Fin 16), i = ix2 r q := ⟨i 0, i 1, eq_ix2 i⟩
  rw [val_main_v48_apply]
  show _ = ∑ k : Fin 64, max (val_main_v43 (F := Ideal) x0 x1 x2 (ix2 r k) + x3 (ix1 k)) (Ideal.ofBits .f32 0x00000000#32)
    * x4 (ix2 k q)
  refine Finset.sum_congr rfl fun k _ => ?_
  have el : lidx_main_v48 (ix2 r q) k = ix2 r k :=
    funext fun a => Fin.ext (by match a with | ⟨0, _⟩ => rfl | ⟨1, _⟩ => rfl)
  have er : ridx_main_v48 (ix2 r q) k = ix2 k q :=
    funext fun a => Fin.ext (by match a with | ⟨0, _⟩ => rfl | ⟨1, _⟩ => rfl)
  have e3 : idx_main_v44 (idx_main_v45 (ix2 r k)) = ix1 k :=
    funext fun a => Fin.ext (by match a with | ⟨0, _⟩ => rfl)
  rw [el, er, val_main_v47_apply, val_main_v46_apply, val_main_v45_apply, val_main_v44_apply, val_main_call1_v0_apply,
    val_main_call1_cst_apply, e3]
  rfl

/-! ## The biased scores and the outlined logarithmic softmax -/

/-- The biased scores at (r, j). -/
theorem v79_at (r : Fin 100000) (j : Fin 16) :
    val_main_v79 (F := Ideal) x0 x1 x2 x3 x4 x5 (ix2 r j)
      = Cert.Gcn.scores (val_main_v76 (F := Ideal) x0 x1 x2 x3 x4) x5 r j := by
  have e : idx_main_v77 (idx_main_v78 (ix2 r j)) = ix1 j := funext fun a => Fin.ext (by match a with | ⟨0, _⟩ => rfl)
  rw [val_main_v79_apply, val_main_v78_apply, val_main_v77_apply, e]
  rfl

/-- The reference's shapes reduce along axis 1 (decided). -/
theorem hR : S100000x16.Reduces [1] S100000 := by decide

/-- The host's maximum over axis 1 from −∞, at row r, is the fold of max over the row's 16 entries. -/
theorem rowfold (z : S100000x16.Idx → Ideal .f32) (r : Fin 100000) :
    Host.reduce FloatOps.maximumf z (val_main_call2_cst (F := Ideal)) reducesTo_S100000x16_S100000_d1 h_S_ (ix1 r)
      = (Finset.univ : Finset (Fin 16)).fold max (Ideal.ofBits .f32 0xFF800000#32) (fun k => z (ix2 r k)) := by
  refine (Host.reduce_eq_fold_single FloatOps.maximumf z (val_main_call2_cst (F := Ideal))
    reducesTo_S100000x16_S100000_d1 hR h_S_ (ix1 r)).trans ?_
  exact congrArg ((Finset.univ : Finset (Fin 16)).fold max (Ideal.ofBits .f32 0xFF800000#32))
    (funext fun k => congrArg z (funext fun a => Fin.ext (by match a with | ⟨0, _⟩ => rfl | ⟨1, _⟩ => rfl)))

/-- The row's maximum at r. -/
theorem call2_v2_at (r : Fin 100000) :
    val_main_call2_v2 (F := Ideal) x0 x1 x2 x3 x4 x5 (ix1 r)
      = Cert.Gcn.rowMax (Cert.Gcn.scores (val_main_v76 (F := Ideal) x0 x1 x2 x3 x4) x5 r) := by
  have hz : ∀ k : Fin 16, val_main_v79 (F := Ideal) x0 x1 x2 x3 x4 x5 (ix2 r k)
      = Cert.Gcn.scores (val_main_v76 (F := Ideal) x0 x1 x2 x3 x4) x5 r k := fun k => v79_at x0 x1 x2 x3 x4 x5 r k
  rw [val_main_call2_v2_apply, val_main_call2_v1_apply, val_main_call2_cst_0_apply]
  unfold val_main_call2_v0 Cert.Gcn.rowMax
  generalize val_main_v79 (F := Ideal) x0 x1 x2 x3 x4 x5 = z at hz ⊢
  generalize Cert.Gcn.scores (val_main_v76 (F := Ideal) x0 x1 x2 x3 x4) x5 r = s at hz ⊢
  show max (Ideal.ofBits .f32 0xFF800000#32)
    (Host.reduce FloatOps.maximumf z (val_main_call2_cst (F := Ideal)) reducesTo_S100000x16_S100000_d1 h_S_ (ix1 r)) = _
  refine congrArg (max _) ((rowfold z r).trans ?_)
  exact congrArg ((Finset.univ : Finset (Fin 16)).fold max (Ideal.ofBits .f32 0xFF800000#32)) (funext hz)

/-- The scores less their row's maximum at (r, j). -/
theorem call2_v5_at (r : Fin 100000) (j : Fin 16) :
    val_main_call2_v5 (F := Ideal) x0 x1 x2 x3 x4 x5 (ix2 r j)
      = Cert.Gcn.scores (val_main_v76 (F := Ideal) x0 x1 x2 x3 x4) x5 r j
        - Cert.Gcn.rowMax (Cert.Gcn.scores (val_main_v76 (F := Ideal) x0 x1 x2 x3 x4) x5 r) := by
  have e : idx_main_call2_v3 (idx_main_call2_v4 (ix2 r j)) = ix1 r := funext fun a => Fin.ext (by match a with | ⟨0, _⟩ => rfl)
  rw [val_main_call2_v5_apply, val_main_call2_v4_apply, val_main_call2_v3_apply, e, call2_v2_at, v79_at]
  rfl

/-- The row's sum of exponentials at r. -/
theorem call2_v7_at (r : Fin 100000) :
    val_main_call2_v7 (F := Ideal) x0 x1 x2 x3 x4 x5 (ix1 r)
      = ∑ j : Fin 16, Ideal.exp (Cert.Gcn.scores (val_main_v76 (F := Ideal) x0 x1 x2 x3 x4) x5 r j
          - Cert.Gcn.rowMax (Cert.Gcn.scores (val_main_v76 (F := Ideal) x0 x1 x2 x3 x4) x5 r)) := by
  rw [val_main_call2_v7_apply, val_main_call2_cst_1_apply]
  show Ideal.ofBits .f32 0x00000000#32 + _ = _
  rw [Ideal.ofBits_zero_f32, zero_add]
  refine Finset.sum_congr rfl fun k _ => ?_
  have e : idx_main_call2_v7 (ix1 r) k = ix2 r k := funext fun a => Fin.ext (by match a with | ⟨0, _⟩ => rfl | ⟨1, _⟩ => rfl)
  rw [e, val_main_call2_v6_apply, call2_v5_at]
  generalize val_main_v76 (F := Ideal) x0 x1 x2 x3 x4 = a
  rfl

/-- The biased scores followed by the outlined logarithmic softmax are the specification's. -/
theorem v80_eq :
    val_main_v80 (F := Ideal) x0 x1 x2 x3 x4 x5
      = Cert.Gcn.logSoftmax (val_main_v76 (F := Ideal) x0 x1 x2 x3 x4) x5 := by
  funext i
  obtain ⟨r, q, rfl⟩ : ∃ (r : Fin 100000) (q : Fin 16), i = ix2 r q := ⟨i 0, i 1, eq_ix2 i⟩
  have e : idx_main_call2_v8 (idx_main_call2_v10 (ix2 r q)) = ix1 r := funext fun a => Fin.ext (by match a with | ⟨0, _⟩ => rfl)
  rw [val_main_v80_apply, val_main_call2_v10_apply, val_main_call2_v9_apply, val_main_call2_v8_apply, e, call2_v7_at, call2_v5_at]
  generalize val_main_v76 (F := Ideal) x0 x1 x2 x3 x4 = a
  rfl

/-- The reference computes the edge coefficients twice, by the same operations: once is enough. -/
theorem v64_eq : val_main_v64 (F := Ideal) x1 = val_main_v31 (F := Ideal) x1 := by
  unfold val_main_v64 val_main_v63 val_main_v62 val_main_v61 val_main_v60 val_main_v59 val_main_v58 val_main_c_12
    val_main_v57 val_main_v56 val_main_c_11 val_main_v55 val_main_v54 val_main_v53 val_main_v52 val_main_v51 val_main_c_10
    val_main_v50 val_main_v49 val_main_c_9
    val_main_v31 val_main_v30 val_main_v29 val_main_v28 val_main_v27 val_main_v26 val_main_v25 val_main_c_5
    val_main_v24 val_main_v23 val_main_c_4 val_main_v22 val_main_v21 val_main_v20 val_main_v19 val_main_v18 val_main_c_3
    val_main_v17 val_main_v16 val_main_c
  rfl

end Cert.ReferenceIdeal.Stages

end
-- ==== Proof.KHost.lean ====
/-
  The kernel program's result as a function of its arguments. Between its three regions the program runs the same
  host operations as the reference: it lists sources and targets of the edges (with a self-loop per node), counts the
  targets' degrees, forms the symmetric normalisation coefficient of every edge, and twice gathers rows along the
  sources, scales them by the coefficients and adds them into their targets' rows. Walking the run's boundary
  contents from the launch to the return, every buffer a later stretch or region reads is identified with the
  reference's stage of the same name applied to the arguments: the shared stretches by unfolding both sides to the
  same operations, the three regions by the specification's functions, which the reference's dense stages also are.
-/
import proofs.«142692_j35364760715853_1_alg».proof.Proof.Gen.KernelIdeal.Frame
import proofs.«142692_j35364760715853_1_alg».proof.Proof.KReg0
import proofs.«142692_j35364760715853_1_alg».proof.Proof.KReg1
import proofs.«142692_j35364760715853_1_alg».proof.Proof.KReg2
import proofs.«142692_j35364760715853_1_alg».proof.Proof.RefStages
import Idealize.ShloMosaic.Lib.StableHlo.Run
import Idealize.ShloMosaic.Lib.ValueLayout

set_option maxRecDepth 16384

noncomputable section

namespace Cert.KernelIdeal.Walk

open Cert.KernelIdeal Cert.KernelIdeal.Gen
open Cert.ReferenceIdeal.ReadP
open Idealize.ShloMosaic Idealize.ShloMosaic.TcCoe Idealize.ShloMosaic.ValueIdx Idealize.ShloMosaic.StableHlo Idealize.SL.Sem

/-- The fold read at one buffer: one simp pass over the operations' result lemmas, then the rewriting form of the same
    lemmas for what the simp pass does not enter (the operand pairs of a concatenate). -/
macro "fold_results" : tactic =>
  `(tactic| (after_results_simp
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

/-! ## The host stretches, each over any contents it is entered from -/

section Stretches

variable {F : FTy → Type} [FloatOps F] (X : Valuation τ sig (Elt F))

/-- The three stretches before region 0, run from `X`. -/
abbrev pre : Valuation τ sig (Elt F) := after hostOps0_2 (after hostOps0_1 (after hostOps0 X))

/-- The edges' sources, self-loops appended. -/
theorem pre_v3 : pre X (Proc.devRef .tc main_v3) = val_main_v3 (F := F) (X (Proc.devRef .tc main_arg1)) := by
  unfold pre
  after_results <;> rfl

/-- The edges' targets, self-loops appended. -/
theorem pre_v6 : pre X (Proc.devRef .tc main_v6) = val_main_v6 (F := F) (X (Proc.devRef .tc main_arg1)) := by
  unfold pre
  after_results <;> rfl

/-- The edges' normalisation coefficients, as a column. -/
theorem pre_v30 : pre X (Proc.devRef .tc main_v30) = val_main_v31 (F := F) (X (Proc.devRef .tc main_arg1)) := by
  unfold pre
  fold_results
  rfl

/-- No operation before region 0 writes an argument. -/
theorem pre_arg0 : pre X (Proc.devRef .tc main_arg0) = X (Proc.devRef .tc main_arg0) := by unfold pre; after_results
theorem pre_arg2 : pre X (Proc.devRef .tc main_arg2) = X (Proc.devRef .tc main_arg2) := by unfold pre; after_results
theorem pre_arg3 : pre X (Proc.devRef .tc main_arg3) = X (Proc.devRef .tc main_arg3) := by unfold pre; after_results
theorem pre_arg4 : pre X (Proc.devRef .tc main_arg4) = X (Proc.devRef .tc main_arg4) := by unfold pre; after_results
theorem pre_arg5 : pre X (Proc.devRef .tc main_arg5) = X (Proc.devRef .tc main_arg5) := by unfold pre; after_results

variable (x0 : (⟨Cert.ReferenceIdeal.S100000x512, .f32⟩ : BufTy).Contents (Elt F))
  (x1 : (⟨Cert.ReferenceIdeal.S2x3200000, .i32⟩ : BufTy).Contents (Elt F))
  (x2 : (⟨Cert.ReferenceIdeal.S512x64, .f32⟩ : BufTy).Contents (Elt F))
  (x3 : (⟨Cert.ReferenceIdeal.S64, .f32⟩ : BufTy).Contents (Elt F))
  (x4 : (⟨Cert.ReferenceIdeal.S64x16, .f32⟩ : BufTy).Contents (Elt F))

/-- The stretch between regions 0 and 1: the first aggregation, of whatever projection it is entered with. -/
theorem mid1_v43 (h31 : X (Proc.devRef .tc main_v31) = val_main_v15 (F := F) x0 x2)
    (h3 : X (Proc.devRef .tc main_v3) = val_main_v3 (F := F) x1)
    (h6 : X (Proc.devRef .tc main_v6) = val_main_v6 (F := F) x1)
    (h30 : X (Proc.devRef .tc main_v30) = val_main_v31 (F := F) x1) :
    after hostOps1 X (Proc.devRef .tc main_v43) = val_main_v43 (F := F) x0 x1 x2 := by
  fold_results
  rw [h31, h3, h6, h30]
  rfl

/-- The same stretch recasts the first bias vector as one row. -/
theorem mid1_v44 : after hostOps1 X (Proc.devRef .tc main_v44)
    = shapeCast S1x64 (X (Proc.devRef .tc main_arg3)) shapeCasts_S64_S1x64 := by
  after_results <;> rfl

theorem mid1_v3 : after hostOps1 X (Proc.devRef .tc main_v3) = X (Proc.devRef .tc main_v3) := by after_results
theorem mid1_v6 : after hostOps1 X (Proc.devRef .tc main_v6) = X (Proc.devRef .tc main_v6) := by after_results
theorem mid1_v30 : after hostOps1 X (Proc.devRef .tc main_v30) = X (Proc.devRef .tc main_v30) := by after_results
theorem mid1_arg4 : after hostOps1 X (Proc.devRef .tc main_arg4) = X (Proc.devRef .tc main_arg4) := by after_results
theorem mid1_arg5 : after hostOps1 X (Proc.devRef .tc main_arg5) = X (Proc.devRef .tc main_arg5) := by after_results

/-- The stretch between regions 1 and 2: the second aggregation, of whatever projection it is entered with. The
    reference forms the edge coefficients a second time here; the kernel's program reuses the first. -/
theorem mid2_v57 (h45 : X (Proc.devRef .tc main_v45) = val_main_v48 (F := F) x0 x1 x2 x3 x4)
    (h3 : X (Proc.devRef .tc main_v3) = val_main_v3 (F := F) x1)
    (h6 : X (Proc.devRef .tc main_v6) = val_main_v6 (F := F) x1)
    (h30 : X (Proc.devRef .tc main_v30) = val_main_v31 (F := F) x1) :
    after hostOps2 X (Proc.devRef .tc main_v57) = val_main_v76 (F := F) x0 x1 x2 x3 x4 := by
  fold_results
  rw [h45, h3, h6, h30]
  rfl

/-- The same stretch recasts the second bias vector as one row. -/
theorem mid2_v58 : after hostOps2 X (Proc.devRef .tc main_v58)
    = shapeCast S1x16 (X (Proc.devRef .tc main_arg5)) shapeCasts_S16_S1x16 := by
  after_results <;> rfl

end Stretches

/-- A vector recast as a one-row matrix, read back along its row, is the vector. -/
theorem rowOf_shapeCast {n : Nat} (b : (⟨1, ![n]⟩ : Shape).Idx → EReal)
    (h : (⟨1, ![n]⟩ : Shape).ShapeCasts ⟨2, ![1, n]⟩) : Cert.Gcn.rowOf (shapeCast ⟨2, ![1, n]⟩ b h) = b := by
  funext j
  obtain ⟨k, rfl⟩ : ∃ k : Fin n, j = ix1 k := ⟨j 0, eq_ix1 j⟩
  exact shapeCast_a_1a_apply b h 0 k

/-! ## Along the run's boundary contents -/

section Run

variable (m : (ℓ : Loc nD τ sig) → Buf (Elt Ideal) ℓ) (ρ : Dev nD → PrngReg) (c : Dev nD)

/-- Region 0 is entered from the three first stretches run from the launch memory. -/
theorem W3_eq : W3 m ρ c = pre (W0 m ρ c) := rfl

theorem at4_v31 : W4 m ρ c (Proc.devRef .tc main_v31)
    = val_main_v15 (F := Ideal) (m ((c : Thread nD τ).loc main_arg0)) (m ((c : Thread nD τ).loc main_arg2)) := by
  refine ((W4_arr m ρ c 2).trans (Reg0.final (V3 m ρ) c)).trans ?_
  rw [Cert.ReferenceIdeal.Stages.v15_eq]
  show Cert.Gcn.project1 (W3 m ρ c (Proc.devRef .tc main_arg0)) (W3 m ρ c (Proc.devRef .tc main_arg2)) = _
  rw [W3_eq, pre_arg0, pre_arg2]

theorem at4_v3 : W4 m ρ c (Proc.devRef .tc main_v3) = val_main_v3 (F := Ideal) (m ((c : Thread nD τ).loc main_arg1)) :=
  (W4_of_ne m ρ c main_v3 (by decide)).trans ((congrFun (W3_eq m ρ c) _).trans (pre_v3 (W0 m ρ c)))
theorem at4_v6 : W4 m ρ c (Proc.devRef .tc main_v6) = val_main_v6 (F := Ideal) (m ((c : Thread nD τ).loc main_arg1)) :=
  (W4_of_ne m ρ c main_v6 (by decide)).trans ((congrFun (W3_eq m ρ c) _).trans (pre_v6 (W0 m ρ c)))
theorem at4_v30 : W4 m ρ c (Proc.devRef .tc main_v30) = val_main_v31 (F := Ideal) (m ((c : Thread nD τ).loc main_arg1)) :=
  (W4_of_ne m ρ c main_v30 (by decide)).trans ((congrFun (W3_eq m ρ c) _).trans (pre_v30 (W0 m ρ c)))
theorem at4_arg3 : W4 m ρ c (Proc.devRef .tc main_arg3) = m ((c : Thread nD τ).loc main_arg3) :=
  (W4_of_ne m ρ c main_arg3 (by decide)).trans ((congrFun (W3_eq m ρ c) _).trans (pre_arg3 (W0 m ρ c)))
theorem at4_arg4 : W4 m ρ c (Proc.devRef .tc main_arg4) = m ((c : Thread nD τ).loc main_arg4) :=
  (W4_of_ne m ρ c main_arg4 (by decide)).trans ((congrFun (W3_eq m ρ c) _).trans (pre_arg4 (W0 m ρ c)))
theorem at4_arg5 : W4 m ρ c (Proc.devRef .tc main_arg5) = m ((c : Thread nD τ).loc main_arg5) :=
  (W4_of_ne m ρ c main_arg5 (by decide)).trans ((congrFun (W3_eq m ρ c) _).trans (pre_arg5 (W0 m ρ c)))

/-- Region 1 leaves the reference's second projection. -/
theorem at6_v45 : W6 m ρ c (Proc.devRef .tc main_v45)
    = val_main_v48 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine ((W6_arr m ρ c 3).trans (Reg1.final (V5 m ρ) c)).trans ?_
  rw [Cert.ReferenceIdeal.Stages.v48_eq]
  show Cert.Gcn.project2 (after hostOps1 (W4 m ρ c) (Proc.devRef .tc main_v43))
    (Cert.Gcn.rowOf (after hostOps1 (W4 m ρ c) (Proc.devRef .tc main_v44))) (after hostOps1 (W4 m ρ c) (Proc.devRef .tc main_arg4)) = _
  rw [mid1_v43 (W4 m ρ c) _ _ _ (at4_v31 m ρ c) (at4_v3 m ρ c) (at4_v6 m ρ c) (at4_v30 m ρ c), mid1_v44, mid1_arg4,
    at4_arg3, at4_arg4, rowOf_shapeCast]

theorem at6_v3 : W6 m ρ c (Proc.devRef .tc main_v3) = val_main_v3 (F := Ideal) (m ((c : Thread nD τ).loc main_arg1)) :=
  (W6_of_ne m ρ c main_v3 (by decide)).trans ((mid1_v3 (W4 m ρ c)).trans (at4_v3 m ρ c))
theorem at6_v6 : W6 m ρ c (Proc.devRef .tc main_v6) = val_main_v6 (F := Ideal) (m ((c : Thread nD τ).loc main_arg1)) :=
  (W6_of_ne m ρ c main_v6 (by decide)).trans ((mid1_v6 (W4 m ρ c)).trans (at4_v6 m ρ c))
theorem at6_v30 : W6 m ρ c (Proc.devRef .tc main_v30) = val_main_v31 (F := Ideal) (m ((c : Thread nD τ).loc main_arg1)) :=
  (W6_of_ne m ρ c main_v30 (by decide)).trans ((mid1_v30 (W4 m ρ c)).trans (at4_v30 m ρ c))
theorem at6_arg5 : W6 m ρ c (Proc.devRef .tc main_arg5) = m ((c : Thread nD τ).loc main_arg5) :=
  (W6_of_ne m ρ c main_arg5 (by decide)).trans ((mid1_arg5 (W4 m ρ c)).trans (at4_arg5 m ρ c))

/-- THE RESULT: what the kernel program leaves in its result array is the reference's last stage of the arguments. -/
theorem result : W8 m ρ c (Proc.devRef .tc main_v59)
    = val_main_v80 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine ((W8_arr m ρ c 2).trans (Reg2.final (V7 m ρ) c)).trans ?_
  rw [Cert.ReferenceIdeal.Stages.v80_eq]
  show Cert.Gcn.logSoftmax (after hostOps2 (W6 m ρ c) (Proc.devRef .tc main_v57))
    (Cert.Gcn.rowOf (after hostOps2 (W6 m ρ c) (Proc.devRef .tc main_v58))) = _
  rw [mid2_v57 (W6 m ρ c) _ _ _ _ _ (at6_v45 m ρ c) (at6_v3 m ρ c) (at6_v6 m ρ c) (at6_v30 m ρ c), mid2_v58,
    at6_arg5, rowOf_shapeCast]

end Run

end Cert.KernelIdeal.Walk

end
-- ==== Proof.RefValue.lean ====
/-
  What the reference's run leaves in its result array, as a function of the arguments. The run read back gives the
  array as the fold of the program's 117 host operations over the launch contents. The fold is cut where the dense
  stages are — after the edge lists, degrees and coefficients and the first projection; after the first
  aggregation; after bias, rectifier and second projection; after the coefficients formed a second time; after the
  second aggregation; and the biased scores with the logarithmic softmax — and each stretch's result is the
  reference's stage of the same name, given the stages it reads. Every lemma holds at any float values.
-/
import proofs.«142692_j35364760715853_1_alg».proof.Proof.RefRun
import proofs.«142692_j35364760715853_1_alg».proof.Proof.RefRead
import Idealize.ShloMosaic.Lib.StableHlo.Run
import Idealize.ShloMosaic.Lib.Pipeline.Frame

set_option maxRecDepth 16384

noncomputable section

namespace Cert.ReferenceIdeal.Fold

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]

/-- The fold read at one buffer: one simp pass over the operations' result lemmas, then the rewriting form of the same
    lemmas for what the simp pass does not enter (the operand pairs of a concatenate). -/
macro "fold_results" : tactic =>
  `(tactic| (after_results_simp
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

/-! ## The operations, in stretches -/

/-- Operations 1 … 42: sources and targets, degrees, the inverse square roots, the first projection, the coefficients. -/
abbrev opsA : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    binary main_arg0 main_arg2 main_v15 ((fun l r => Host.dotGeneral dot_S100000x512_S512x64_S100000x64_1_0_0_1_n_n none l r) : (⟨S100000x512, .f32⟩ : BufTy).Contents (Elt F) → (⟨S512x64, .f32⟩ : BufTy).Contents (Elt F) → (⟨S100000x64, .f32⟩ : BufTy).Contents (Elt F)),
    nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v3 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v18 (broadcastInDim S3300000 ![] bcast_S_S3300000 : (⟨S_, .i32⟩ : BufTy).Contents (Elt F) → (⟨S3300000, .i32⟩ : BufTy).Contents (Elt F)),
    binary main_v3 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v3 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v14 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v23 (broadcastInDim S3300000 ![] bcast_S_S3300000 : (⟨S_, .i32⟩ : BufTy).Contents (Elt F) → (⟨S3300000, .i32⟩ : BufTy).Contents (Elt F)),
    binary main_v6 main_v23 main_v24 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v25 (broadcastInDim S3300000 ![] bcast_S_S3300000 : (⟨S_, .i32⟩ : BufTy).Contents (Elt F) → (⟨S3300000, .i32⟩ : BufTy).Contents (Elt F)),
    binary main_v6 main_v25 main_v26 (addi : (⟨S3300000, .i32⟩ : BufTy).Contents (Elt F) → (⟨S3300000, .i32⟩ : BufTy).Contents (Elt F) → (⟨S3300000, .i32⟩ : BufTy).Contents (Elt F)),
    ternary main_v24 main_v26 main_v6 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v27 main_v28 (broadcastInDim S3300000x1 ![0] bcast_S3300000_S3300000x1_0 : (⟨S3300000, .i32⟩ : BufTy).Contents (Elt F) → (⟨S3300000x1, .i32⟩ : BufTy).Contents (Elt F)),
    binary main_v14 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v29 main_v30 (mulf : (⟨S3300000, .f32⟩ : BufTy).Contents (Elt F) → (⟨S3300000, .f32⟩ : BufTy).Contents (Elt F) → (⟨S3300000, .f32⟩ : BufTy).Contents (Elt F)),
    unary main_v30 main_v31 (broadcastInDim S3300000x1 ![0] bcast_S3300000_S3300000x1_0 : (⟨S3300000, .f32⟩ : BufTy).Contents (Elt F) → (⟨S3300000x1, .f32⟩ : BufTy).Contents (Elt F)) ]

/-- Operations 43 … 57: the first aggregation. -/
abbrev opsB : List (HloOp τ sig (Elt F)) :=
  [ nullary main_c_6 (constantI S_ 32 0#32),
    unary main_c_6 main_v32 (broadcastInDim S3300000 ![] bcast_S_S3300000 : (⟨S_, .i32⟩ : BufTy).Contents (Elt F) → (⟨S3300000, .i32⟩ : BufTy).Contents (Elt F)),
    binary main_v3 main_v32 main_v33 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v34 (broadcastInDim S3300000 ![] bcast_S_S3300000 : (⟨S_, .i32⟩ : BufTy).Contents (Elt F) → (⟨S3300000, .i32⟩ : BufTy).Contents (Elt F)),
    binary main_v3 main_v34 main_v35 (addi : (⟨S3300000, .i32⟩ : BufTy).Contents (Elt F) → (⟨S3300000, .i32⟩ : BufTy).Contents (Elt F) → (⟨S3300000, .i32⟩ : BufTy).Contents (Elt F)),
    ternary main_v33 main_v35 main_v3 main_v36 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v36 main_v37 (broadcastInDim S3300000x1 ![0] bcast_S3300000_S3300000x1_0 : (⟨S3300000, .i32⟩ : BufTy).Contents (Elt F) → (⟨S3300000x1, .i32⟩ : BufTy).Contents (Elt F)),
    binary main_v15 main_v37 main_v38 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v31 main_v39 (broadcastInDim S3300000x64 ![0, 1] bcast_S3300000x1_S3300000x64_0_1 : (⟨S3300000x1, .f32⟩ : BufTy).Contents (Elt F) → (⟨S3300000x64, .f32⟩ : BufTy).Contents (Elt F)),
    binary main_v38 main_v39 main_v40 (mulf : (⟨S3300000x64, .f32⟩ : BufTy).Contents (Elt F) → (⟨S3300000x64, .f32⟩ : BufTy).Contents (Elt F) → (⟨S3300000x64, .f32⟩ : BufTy).Contents (Elt F)),
    nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)) ]

/-- Operations 58 … 64: bias, rectifier, second projection. -/
abbrev opsC : List (HloOp τ sig (Elt F)) :=
  [ unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v46) (TRef.of (T := ⟨S100000x64, .f32⟩) main_call1_v0) (TRef.of (T := ⟨S100000x64, .f32⟩) main_v47) maximumf,
    binary main_v47 main_arg4 main_v48 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)) ]

/-- Operations 65 … 84: the coefficients, formed again. -/
abbrev opsD : List (HloOp τ sig (Elt F)) :=
  [ nullary main_c_9 (constantI S_ 32 0#32),
    unary main_c_9 main_v49 (broadcastInDim S3300000 ![] bcast_S_S3300000 : (⟨S_, .i32⟩ : BufTy).Contents (Elt F) → (⟨S3300000, .i32⟩ : BufTy).Contents (Elt F)),
    binary main_v3 main_v49 main_v50 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v51 (broadcastInDim S3300000 ![] bcast_S_S3300000 : (⟨S_, .i32⟩ : BufTy).Contents (Elt F) → (⟨S3300000, .i32⟩ : BufTy).Contents (Elt F)),
    binary main_v3 main_v51 main_v52 (addi : (⟨S3300000, .i32⟩ : BufTy).Contents (Elt F) → (⟨S3300000, .i32⟩ : BufTy).Contents (Elt F) → (⟨S3300000, .i32⟩ : BufTy).Contents (Elt F)),
    ternary main_v50 main_v52 main_v3 main_v53 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v53 main_v54 (broadcastInDim S3300000x1 ![0] bcast_S3300000_S3300000x1_0 : (⟨S3300000, .i32⟩ : BufTy).Contents (Elt F) → (⟨S3300000x1, .i32⟩ : BufTy).Contents (Elt F)),
    binary main_v14 main_v54 main_v55 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_11 (constantI S_ 32 0#32),
    unary main_c_11 main_v56 (broadcastInDim S3300000 ![] bcast_S_S3300000 : (⟨S_, .i32⟩ : BufTy).Contents (Elt F) → (⟨S3300000, .i32⟩ : BufTy).Contents (Elt F)),
    binary main_v6 main_v56 main_v57 (cmpi .slt : (⟨S3300000, .i32⟩ : BufTy).Contents (Elt F) → (⟨S3300000, .i32⟩ : BufTy).Contents (Elt F) → (⟨S3300000, .i1⟩ : BufTy).Contents (Elt F)),
    nullary main_c_12 (constantI S_ 32 100000#32),
    unary main_c_12 main_v58 (broadcastInDim S3300000 ![] bcast_S_S3300000 : (⟨S_, .i32⟩ : BufTy).Contents (Elt F) → (⟨S3300000, .i32⟩ : BufTy).Contents (Elt F)),
    binary main_v6 main_v58 main_v59 (addi : (⟨S3300000, .i32⟩ : BufTy).Contents (Elt F) → (⟨S3300000, .i32⟩ : BufTy).Contents (Elt F) → (⟨S3300000, .i32⟩ : BufTy).Contents (Elt F)),
    ternary main_v57 main_v59 main_v6 main_v60 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v60 main_v61 (broadcastInDim S3300000x1 ![0] bcast_S3300000_S3300000x1_0 : (⟨S3300000, .i32⟩ : BufTy).Contents (Elt F) → (⟨S3300000x1, .i32⟩ : BufTy).Contents (Elt F)),
    binary main_v14 main_v61 main_v62 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v55 main_v62 main_v63 (mulf : (⟨S3300000, .f32⟩ : BufTy).Contents (Elt F) → (⟨S3300000, .f32⟩ : BufTy).Contents (Elt F) → (⟨S3300000, .f32⟩ : BufTy).Contents (Elt F)),
    unary main_v63 main_v64 (broadcastInDim S3300000x1 ![0] bcast_S3300000_S3300000x1_0 : (⟨S3300000, .f32⟩ : BufTy).Contents (Elt F) → (⟨S3300000x1, .f32⟩ : BufTy).Contents (Elt F)) ]

/-- Operations 85 … 99: the second aggregation. -/
abbrev opsE : List (HloOp τ sig (Elt F)) :=
  [ nullary main_c_13 (constantI S_ 32 0#32),
    unary main_c_13 main_v65 (broadcastInDim S3300000 ![] bcast_S_S3300000 : (⟨S_, .i32⟩ : BufTy).Contents (Elt F) → (⟨S3300000, .i32⟩ : BufTy).Contents (Elt F)),
    binary main_v3 main_v65 main_v66 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v67 (broadcastInDim S3300000 ![] bcast_S_S3300000 : (⟨S_, .i32⟩ : BufTy).Contents (Elt F) → (⟨S3300000, .i32⟩ : BufTy).Contents (Elt F)),
    binary main_v3 main_v67 main_v68 (addi : (⟨S3300000, .i32⟩ : BufTy).Contents (Elt F) → (⟨S3300000, .i32⟩ : BufTy).Contents (Elt F) → (⟨S3300000, .i32⟩ : BufTy).Contents (Elt F)),
    ternary main_v66 main_v68 main_v3 main_v69 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v69 main_v70 (broadcastInDim S3300000x1 ![0] bcast_S3300000_S3300000x1_0 : (⟨S3300000, .i32⟩ : BufTy).Contents (Elt F) → (⟨S3300000x1, .i32⟩ : BufTy).Contents (Elt F)),
    binary main_v48 main_v70 main_v71 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v64 main_v72 (broadcastInDim S3300000x16 ![0, 1] bcast_S3300000x1_S3300000x16_0_1 : (⟨S3300000x1, .f32⟩ : BufTy).Contents (Elt F) → (⟨S3300000x16, .f32⟩ : BufTy).Contents (Elt F)),
    binary main_v71 main_v72 main_v73 (mulf : (⟨S3300000x16, .f32⟩ : BufTy).Contents (Elt F) → (⟨S3300000x16, .f32⟩ : BufTy).Contents (Elt F) → (⟨S3300000x16, .f32⟩ : BufTy).Contents (Elt F)),
    nullary main_cst_15 (constant S_ .f32 0x00000000#32),
    unary main_cst_15 main_v74 (broadcastInDim S100000x16 ![] bcast_S_S100000x16 : (⟨S_, .f32⟩ : BufTy).Contents (Elt F) → (⟨S100000x16, .f32⟩ : BufTy).Contents (Elt F)),
    unary main_v6 main_v75 (broadcastInDim S3300000x1 ![0] bcast_S3300000_S3300000x1_0 : (⟨S3300000, .i32⟩ : BufTy).Contents (Elt F) → (⟨S3300000x1, .i32⟩ : BufTy).Contents (Elt F)),
    ternary main_v74 main_v75 main_v73 main_v76 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)) ]

/-- Operations 100 … 102: the biased scores. -/
abbrev opsF1 : List (HloOp τ sig (Elt F)) :=
  [ unary main_arg5 main_v77 (broadcastInDim S1x16 ![1] bcast_S16_S1x16_1 : (⟨S16, .f32⟩ : BufTy).Contents (Elt F) → (⟨S1x16, .f32⟩ : BufTy).Contents (Elt F)),
    unary main_v77 main_v78 (broadcastInDim S100000x16 ![0, 1] bcast_S1x16_S100000x16_0_1 : (⟨S1x16, .f32⟩ : BufTy).Contents (Elt F) → (⟨S100000x16, .f32⟩ : BufTy).Contents (Elt F)),
    binary main_v76 main_v78 main_v79 (addf : (⟨S100000x16, .f32⟩ : BufTy).Contents (Elt F) → (⟨S100000x16, .f32⟩ : BufTy).Contents (Elt F) → (⟨S100000x16, .f32⟩ : BufTy).Contents (Elt F)) ]

/-- Operations 103 … 104: each row's maximum, from −∞. -/
abbrev opsF2 : List (HloOp τ sig (Elt F)) :=
  [ TRef.nullary (TRef.of (T := ⟨S_, .f32⟩) main_call2_cst) (constant S_ .f32 0xFF800000#32),
    TRef.binary (TRef.of (T := ⟨S100000x16, .f32⟩) main_v79) (TRef.of (T := ⟨S_, .f32⟩) main_call2_cst) (TRef.of (T := ⟨S100000, .f32⟩) main_call2_v0) (fun x v => Host.reduce FloatOps.maximumf x v reducesTo_S100000x16_S100000_d1 h_S_) ]

/-- Operations 105 … 110: the maximum once more against −∞, laid along the rows, subtracted. -/
abbrev opsF3 : List (HloOp τ sig (Elt F)) :=
  [ TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x16, .f32⟩) main_call2_v4) (broadcastInDim S100000x16 ![0, 1] bcast_S100000x1_S100000x16_0_1),
    TRef.binary (TRef.of (T := ⟨S100000x16, .f32⟩) main_v79) (TRef.of (T := ⟨S100000x16, .f32⟩) main_call2_v4) (TRef.of (T := ⟨S100000x16, .f32⟩) main_call2_v5) subf ]

/-- Operations 111 … 113: the exponentials and each row's sum of them, from 0. -/
abbrev opsF4 : List (HloOp τ sig (Elt F)) :=
  [ TRef.unary (TRef.of (T := ⟨S100000x16, .f32⟩) main_call2_v5) (TRef.of (T := ⟨S100000x16, .f32⟩) main_call2_v6) Host.exp,
    TRef.nullary (TRef.of (T := ⟨S_, .f32⟩) main_call2_cst_1) (constant S_ .f32 0x00000000#32),
    TRef.binary (TRef.of (T := ⟨S100000x16, .f32⟩) main_call2_v6) (TRef.of (T := ⟨S_, .f32⟩) main_call2_cst_1) (TRef.of (T := ⟨S100000, .f32⟩) main_call2_v7) (fun x v => Host.reduceAdd x v reducesTo_S100000x16_S100000_d1 h_S_) ]

/-- Operations 114 … 117: the logarithm of the sums, laid along the rows, subtracted. -/
abbrev opsF5 : List (HloOp τ sig (Elt F)) :=
  [ TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x16, .f32⟩) main_call2_v10) (broadcastInDim S100000x16 ![0, 1] bcast_S100000x1_S100000x16_0_1),
    TRef.binary (TRef.of (T := ⟨S100000x16, .f32⟩) main_call2_v5) (TRef.of (T := ⟨S100000x16, .f32⟩) main_call2_v10) (TRef.of (T := ⟨S100000x16, .f32⟩) main_v80) subf ]

/-- The program's operation list is the stretches in order. -/
theorem ops_split : (Cert.ReferenceIdeal.ValueP.ops : List (HloOp τ sig (Elt F)))
    = opsA ++ (opsB ++ (opsC ++ (opsD ++ (opsE ++ (opsF1 ++ (opsF2 ++ (opsF3 ++ (opsF4 ++ opsF5)))))))) := rfl

/-- Identity casts around a binary function's arguments and result drop: with the function held as a variable,
    nothing about it is opened. -/
theorem cast_binary {A B C : Type} (hA : A = A) (hB : B = B) (hC : C = C) (g : A → B → C) (a : A) (b : B) :
    cast hC (g (cast hA a) (cast hB b)) = g a b := rfl

/-- Contents written through a typed reference and read back through the same one are the contents. -/
theorem ofBuf_toBuf {T : BufTy} (x : TRef sig T) (v : T.Contents (Elt F)) : x.ofBuf (x.toBuf v) = v := by
  obtain ⟨r, h, hd, hu⟩ := x
  subst h
  rfl

/-! ## Each stretch, from any contents -/

section Stretches

variable (X : Valuation τ sig (Elt F)) (x0 : (⟨S100000x512, .f32⟩ : BufTy).Contents (Elt F)) (x1 : (⟨S2x3200000, .i32⟩ : BufTy).Contents (Elt F)) (x2 : (⟨S512x64, .f32⟩ : BufTy).Contents (Elt F)) (x3 : (⟨S64, .f32⟩ : BufTy).Contents (Elt F)) (x4 : (⟨S64x16, .f32⟩ : BufTy).Contents (Elt F)) (x5 : (⟨S16, .f32⟩ : BufTy).Contents (Elt F))

theorem A_v3 : after opsA X (Proc.devRef .tc main_v3) = val_main_v3 (F := F) (X (Proc.devRef .tc main_arg1)) := by after_results <;> rfl
theorem A_v6 : after opsA X (Proc.devRef .tc main_v6) = val_main_v6 (F := F) (X (Proc.devRef .tc main_arg1)) := by after_results <;> rfl
theorem A_v14 : after opsA X (Proc.devRef .tc main_v14) = val_main_v14 (F := F) (X (Proc.devRef .tc main_arg1)) := by
  fold_results
  rfl
theorem A_v15 : after opsA X (Proc.devRef .tc main_v15) = val_main_v15 (F := F) (X (Proc.devRef .tc main_arg0)) (X (Proc.devRef .tc main_arg2)) := by
  after_results <;> rfl
theorem A_v31 : after opsA X (Proc.devRef .tc main_v31) = val_main_v31 (F := F) (X (Proc.devRef .tc main_arg1)) := by
  fold_results
  rfl
theorem A_arg3 : after opsA X (Proc.devRef .tc main_arg3) = X (Proc.devRef .tc main_arg3) := by after_results
theorem A_arg4 : after opsA X (Proc.devRef .tc main_arg4) = X (Proc.devRef .tc main_arg4) := by after_results
theorem A_arg5 : after opsA X (Proc.devRef .tc main_arg5) = X (Proc.devRef .tc main_arg5) := by after_results

theorem B_v43 (h15 : X (Proc.devRef .tc main_v15) = val_main_v15 (F := F) x0 x2) (h3 : X (Proc.devRef .tc main_v3) = val_main_v3 (F := F) x1)
    (h6 : X (Proc.devRef .tc main_v6) = val_main_v6 (F := F) x1) (h31 : X (Proc.devRef .tc main_v31) = val_main_v31 (F := F) x1) :
    after opsB X (Proc.devRef .tc main_v43) = val_main_v43 (F := F) x0 x1 x2 := by
  fold_results
  rw [h15, h3, h6, h31]
  rfl
theorem B_v3 : after opsB X (Proc.devRef .tc main_v3) = X (Proc.devRef .tc main_v3) := by after_results
theorem B_v6 : after opsB X (Proc.devRef .tc main_v6) = X (Proc.devRef .tc main_v6) := by after_results
theorem B_v14 : after opsB X (Proc.devRef .tc main_v14) = X (Proc.devRef .tc main_v14) := by after_results
theorem B_arg3 : after opsB X (Proc.devRef .tc main_arg3) = X (Proc.devRef .tc main_arg3) := by after_results
theorem B_arg4 : after opsB X (Proc.devRef .tc main_arg4) = X (Proc.devRef .tc main_arg4) := by after_results
theorem B_arg5 : after opsB X (Proc.devRef .tc main_arg5) = X (Proc.devRef .tc main_arg5) := by after_results

theorem C_v48 (h43 : X (Proc.devRef .tc main_v43) = val_main_v43 (F := F) x0 x1 x2) (h3 : X (Proc.devRef .tc main_arg3) = x3) (h4 : X (Proc.devRef .tc main_arg4) = x4) :
    after opsC X (Proc.devRef .tc main_v48) = val_main_v48 (F := F) x0 x1 x2 x3 x4 := by
  fold_results
  rw [h43, h3, h4]
  rfl
theorem C_v3 : after opsC X (Proc.devRef .tc main_v3) = X (Proc.devRef .tc main_v3) := by after_results
theorem C_v6 : after opsC X (Proc.devRef .tc main_v6) = X (Proc.devRef .tc main_v6) := by after_results
theorem C_v14 : after opsC X (Proc.devRef .tc main_v14) = X (Proc.devRef .tc main_v14) := by after_results
theorem C_arg5 : after opsC X (Proc.devRef .tc main_arg5) = X (Proc.devRef .tc main_arg5) := by after_results

theorem D_v64 (h14 : X (Proc.devRef .tc main_v14) = val_main_v14 (F := F) x1) (h3 : X (Proc.devRef .tc main_v3) = val_main_v3 (F := F) x1)
    (h6 : X (Proc.devRef .tc main_v6) = val_main_v6 (F := F) x1) :
    after opsD X (Proc.devRef .tc main_v64) = val_main_v64 (F := F) x1 := by
  fold_results
  rw [h14, h3, h6]
  rfl
theorem D_v48 : after opsD X (Proc.devRef .tc main_v48) = X (Proc.devRef .tc main_v48) := by after_results
theorem D_v3 : after opsD X (Proc.devRef .tc main_v3) = X (Proc.devRef .tc main_v3) := by after_results
theorem D_v6 : after opsD X (Proc.devRef .tc main_v6) = X (Proc.devRef .tc main_v6) := by after_results
theorem D_arg5 : after opsD X (Proc.devRef .tc main_arg5) = X (Proc.devRef .tc main_arg5) := by after_results

theorem E_v76 (h48 : X (Proc.devRef .tc main_v48) = val_main_v48 (F := F) x0 x1 x2 x3 x4) (h3 : X (Proc.devRef .tc main_v3) = val_main_v3 (F := F) x1)
    (h6 : X (Proc.devRef .tc main_v6) = val_main_v6 (F := F) x1) (h64 : X (Proc.devRef .tc main_v64) = val_main_v64 (F := F) x1) :
    after opsE X (Proc.devRef .tc main_v76) = val_main_v76 (F := F) x0 x1 x2 x3 x4 := by
  fold_results
  rw [h48, h3, h6, h64]
  rfl
theorem E_arg5 : after opsE X (Proc.devRef .tc main_arg5) = X (Proc.devRef .tc main_arg5) := by after_results

theorem F1_v79 (h76 : X (Proc.devRef .tc main_v76) = val_main_v76 (F := F) x0 x1 x2 x3 x4) (h5 : X (Proc.devRef .tc main_arg5) = x5) :
    after opsF1 X (Proc.devRef .tc main_v79) = val_main_v79 (F := F) x0 x1 x2 x3 x4 x5 := by
  fold_results
  rw [h76, h5]
  rfl

/-- A row maximum from −∞: the reduction is carried whole, never opened. -/
theorem F2_v0 (h79 : X (Proc.devRef .tc main_v79) = val_main_v79 (F := F) x0 x1 x2 x3 x4 x5) :
    after opsF2 X (Proc.devRef .tc main_call2_v0) = val_main_call2_v0 (F := F) x0 x1 x2 x3 x4 x5 := by
  fold_results
  rw [h79]
  unfold val_main_call2_v0 val_main_call2_cst
  generalize val_main_v79 (F := F) x0 x1 x2 x3 x4 x5 = z
  exact cast_binary _ _ _ (fun x v => Host.reduce FloatOps.maximumf x v reducesTo_S100000x16_S100000_d1 h_S_) _ _
theorem F2_v79 : after opsF2 X (Proc.devRef .tc main_v79) = X (Proc.devRef .tc main_v79) := by after_results

theorem F3_v5 (h0 : X (Proc.devRef .tc main_call2_v0) = val_main_call2_v0 (F := F) x0 x1 x2 x3 x4 x5)
    (h79 : X (Proc.devRef .tc main_v79) = val_main_v79 (F := F) x0 x1 x2 x3 x4 x5) :
    after opsF3 X (Proc.devRef .tc main_call2_v5) = val_main_call2_v5 (F := F) x0 x1 x2 x3 x4 x5 := by
  fold_results
  rw [h0, h79]
  simp only [ofBuf_toBuf]
  unfold val_main_call2_v5 val_main_call2_v4 val_main_call2_v3 val_main_call2_v2 val_main_call2_v1 val_main_call2_cst_0
  generalize val_main_call2_v0 (F := F) x0 x1 x2 x3 x4 x5 = r
  generalize val_main_v79 (F := F) x0 x1 x2 x3 x4 x5 = z
  rfl

/-- A row sum from 0: the reduction is carried whole, never opened. -/
theorem F4_v7 (h5' : X (Proc.devRef .tc main_call2_v5) = val_main_call2_v5 (F := F) x0 x1 x2 x3 x4 x5) :
    after opsF4 X (Proc.devRef .tc main_call2_v7) = val_main_call2_v7 (F := F) x0 x1 x2 x3 x4 x5 := by
  fold_results
  rw [h5']
  unfold val_main_call2_v7 val_main_call2_v6 val_main_call2_cst_1
  generalize val_main_call2_v5 (F := F) x0 x1 x2 x3 x4 x5 = z
  exact cast_binary _ _ _ (fun x v => Host.reduceAdd x v reducesTo_S100000x16_S100000_d1 h_S_) _ _
theorem F4_v5 : after opsF4 X (Proc.devRef .tc main_call2_v5) = X (Proc.devRef .tc main_call2_v5) := by after_results

theorem F5_v80 (h7 : X (Proc.devRef .tc main_call2_v7) = val_main_call2_v7 (F := F) x0 x1 x2 x3 x4 x5)
    (h5' : X (Proc.devRef .tc main_call2_v5) = val_main_call2_v5 (F := F) x0 x1 x2 x3 x4 x5) :
    after opsF5 X (Proc.devRef .tc main_v80) = val_main_v80 (F := F) x0 x1 x2 x3 x4 x5 := by
  fold_results
  rw [h7, h5']
  simp only [ofBuf_toBuf]
  unfold val_main_v80 val_main_call2_v10 val_main_call2_v9 val_main_call2_v8
  generalize val_main_call2_v7 (F := F) x0 x1 x2 x3 x4 x5 = r
  generalize val_main_call2_v5 (F := F) x0 x1 x2 x3 x4 x5 = z
  rfl

end Stretches

/-! ## The whole fold -/

/-- THE RESULT of the reference: the fold of its operations, read at the result buffer, is the last stage of the
    contents the fold starts from at the six arguments. -/
theorem value (V : Valuation τ sig (Elt F)) :
    after Cert.ReferenceIdeal.ValueP.ops V (Proc.devRef .tc main_v80)
      = val_main_v80 (F := F) (V (Proc.devRef .tc main_arg0)) (V (Proc.devRef .tc main_arg1)) (V (Proc.devRef .tc main_arg2)) (V (Proc.devRef .tc main_arg3))
          (V (Proc.devRef .tc main_arg4)) (V (Proc.devRef .tc main_arg5)) := by
  rw [ops_split, after_append, after_append, after_append, after_append, after_append, after_append, after_append,
    after_append, after_append]
  have a3 := A_v3 V
  have a6 := A_v6 V
  have a14 := A_v14 V
  have a15 := A_v15 V
  have a31 := A_v31 V
  have b43 := B_v43 (after opsA V) _ _ _ a15 a3 a6 a31
  have b3 := (B_v3 (after opsA V)).trans a3
  have b6 := (B_v6 (after opsA V)).trans a6
  have b14 := (B_v14 (after opsA V)).trans a14
  have bA3 := (B_arg3 (after opsA V)).trans (A_arg3 V)
  have bA4 := (B_arg4 (after opsA V)).trans (A_arg4 V)
  have bA5 := (B_arg5 (after opsA V)).trans (A_arg5 V)
  have c48 := C_v48 (after opsB (after opsA V)) _ _ _ _ _ b43 bA3 bA4
  have c3 := (C_v3 (after opsB (after opsA V))).trans b3
  have c6 := (C_v6 (after opsB (after opsA V))).trans b6
  have c14 := (C_v14 (after opsB (after opsA V))).trans b14
  have cA5 := (C_arg5 (after opsB (after opsA V))).trans bA5
  have d64 := D_v64 (after opsC (after opsB (after opsA V))) _ c14 c3 c6
  have d48 := (D_v48 (after opsC (after opsB (after opsA V)))).trans c48
  have d3 := (D_v3 (after opsC (after opsB (after opsA V)))).trans c3
  have d6 := (D_v6 (after opsC (after opsB (after opsA V)))).trans c6
  have dA5 := (D_arg5 (after opsC (after opsB (after opsA V)))).trans cA5
  have e76 := E_v76 (after opsD (after opsC (after opsB (after opsA V)))) _ _ _ _ _ d48 d3 d6 d64
  have eA5 := (E_arg5 (after opsD (after opsC (after opsB (after opsA V))))).trans dA5
  have f79 := F1_v79 (after opsE (after opsD (after opsC (after opsB (after opsA V))))) _ _ _ _ _ _ e76 eA5
  have g0 := F2_v0 (after opsF1 (after opsE (after opsD (after opsC (after opsB (after opsA V)))))) _ _ _ _ _ _ f79
  have g79 := (F2_v79 (after opsF1 (after opsE (after opsD (after opsC (after opsB (after opsA V))))))).trans f79
  have h5 := F3_v5 (after opsF2 (after opsF1 (after opsE (after opsD (after opsC (after opsB (after opsA V))))))) _ _ _ _ _ _ g0 g79
  have i7 := F4_v7 (after opsF3 (after opsF2 (after opsF1 (after opsE (after opsD (after opsC (after opsB (after opsA V)))))))) _ _ _ _ _ _ h5
  have i5 := (F4_v5 (after opsF3 (after opsF2 (after opsF1 (after opsE (after opsD (after opsC (after opsB (after opsA V))))))))).trans h5
  exact F5_v80 (after opsF4 (after opsF3 (after opsF2 (after opsF1 (after opsE (after opsD (after opsC (after opsB (after opsA V))))))))) _ _ _ _ _ _ i7 i5

end Cert.ReferenceIdeal.Fold

end
-- ==== Proof.lean ====
/-
  A two-layer graph convolution with a logarithmic softmax, 100000 nodes and 3.2 million edges: the kernel program runs
  its three dense stages as TensorCore regions over blocks of rows and everything along the edges on the host; the
  reference runs everything on the host. At the exact reals the two compute one function.

  The three frames: the kernel programs' are the generated frame certificates of the three-region run; the
  reference's is its run read back, the result dropped. No operation was rewritten by the idealization, so
  `preserves` asks nothing. For `algebraic`, both runs end with the result array at the reference's last stage of the
  arguments: the reference's by its run read back as the fold of its operations, the fold then read stretch by stretch; the kernel program's by the same run as its
  frame with the result array named, walked from the launch to the return — the host stretches are the reference's
  own operations, and each region's array is one whole-array function of what the region finds (a projection, a
  rectified biased projection, a row-wise logarithmic softmax), which the reference's dense stages also are. No
  step needs an input to be finite: the sums on both sides have the same terms in the same order of indices.
-/
import proofs.«142692_j35364760715853_1_alg».proof.Defs
import proofs.«142692_j35364760715853_1_alg».proof.Proof.Gen.Kernel
import proofs.«142692_j35364760715853_1_alg».proof.Proof.Gen.Kernel.Frame
import proofs.«142692_j35364760715853_1_alg».proof.Proof.Gen.KernelIdeal
import proofs.«142692_j35364760715853_1_alg».proof.Proof.Gen.KernelIdeal.Frame
import proofs.«142692_j35364760715853_1_alg».proof.Proof.Gen.ReferenceIdeal
import proofs.«142692_j35364760715853_1_alg».proof.Proof.Gen.Pre_finite_inputs
import proofs.«142692_j35364760715853_1_alg».proof.Proof.KRun
import proofs.«142692_j35364760715853_1_alg».proof.Proof.KHost
import proofs.«142692_j35364760715853_1_alg».proof.Proof.RefRun
import proofs.«142692_j35364760715853_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- Both programs end with the result array at the reference's last stage of the (agreeing) arguments. -/
theorem algebraic : Cert.algebraic_KernelIdeal_ReferenceIdeal := by
  intro m ρ m' ρ' _ hagree
  refine ⟨fun c => Cert.ReferenceIdeal.ReadP.val_main_v80 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Walk.result m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.ValueP.run (F := Ideal) m' ρ')
    refine (Cert.ReferenceIdeal.Fold.value (F := Ideal) (StableHlo.launchContents m' c)).trans ?_
    show Cert.ReferenceIdeal.ReadP.val_main_v80 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) = _
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
